-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S1x256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg6
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg7 main_v33

def fn {F : FTy → Type} [FloatOps F] (main_arg0 : FVec F S10000x256 .f32) (main_arg1 : FVec F S10000x10000 .f32) (main_arg2 : FVec F S256x256 .f32) (main_arg3 : FVec F S256 .f32) (main_arg4 : FVec F S256x256 .f32) (main_arg5 : FVec F S256 .f32) (main_arg6 : FVec F S1x256 .f32) (main_arg7 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S10000x1 : Shape := ⟨2, ![10000, 1]⟩
abbrev S200x10000 : Shape := ⟨2, ![200, 10000]⟩
abbrev S200x256 : Shape := ⟨2, ![200, 256]⟩
abbrev S200x1 : Shape := ⟨2, ![200, 1]⟩
abbrev S200 : Shape := ⟨1, ![200]⟩

abbrev nBuf : Space → Nat
  | .hbm => 13
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S1x256, .f32⟩
  | .hbm, ⟨9, _⟩ => ⟨S1x256, .f32⟩
  | .hbm, ⟨10, _⟩ => ⟨S1x1, .f32⟩
  | .hbm, ⟨11, _⟩ => ⟨S10000x256, .f32⟩
  | .hbm, ⟨12, _⟩ => ⟨S10000x1, .f32⟩
  | .local _ .vmem, ⟨0, _⟩ => ⟨S200x10000, .f32⟩
  | .local _ .vmem, ⟨1, _⟩ => ⟨S200x10000, .f32⟩
  | .local _ .vmem, ⟨2, _⟩ => ⟨S10000x256, .f32⟩
  | .local _ .vmem, ⟨3, _⟩ => ⟨S256x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S1x1, .f32⟩
  | .local _ .vmem, ⟨9, _⟩ => ⟨S200x256, .f32⟩
  | .local _ .vmem, ⟨10, _⟩ => ⟨S200x256, .f32⟩
  | .local _ .vmem, ⟨11, _⟩ => ⟨S200x1, .f32⟩
  | .local _ .vmem, ⟨12, _⟩ => ⟨S200x1, .f32⟩
  | .local _ .vmem, ⟨13, _⟩ => ⟨S10000x256, .bf16⟩
  | .local _ .vmem, ⟨14, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c200_i32 : BitVec 32 := 200#32
  let v26 : BitVec 32 := Scalar.muli arg1 c200_i32
  let v27 : Index := Scalar.indexCast v26
  let c0_14 : Index := 0#32
  ![v27.toNat, 0]
def k0_cond3 (i : grid0.Coords) : BitVec 1 :=
  let arg0 : BitVec 32 := BitVec.ofNat 32 (i 0).val
  let c1_i32 : BitVec 32 := 1#32
  let v10 : BitVec 1 := Scalar.cmpi .eq arg0 c1_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S200x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S200x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S256_S1x256 : S256.ShapeCasts S1x256
  shapeCasts_S1_S1x1 : S1.ShapeCasts S1x1
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  h_S200x256 : 0 < S200x256.numel
  shapeCasts_S200x256_S200x256 : S200x256.ShapeCasts S200x256
  inb_S200x256_S200x256_0_0 : ∀ a, (![0, 0] : Fin 2 → Nat) a + S200x256.size a ≤ S200x256.size a
  reduces_S200x256_S200 : S200x256.Reduces [1] S200
  shapeCasts_S200_S200x1 : S200.ShapeCasts S200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  inb_S200x1_S200x1_0_0 : ∀ a, (![0, 0] : Fin 2 → Nat) a + S200x1.size a ≤ S200x1.size a
  h_S200x1 : 0 < S200x1.numel
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  dot_S200x256_S256x256_S200x256_1_0_0_1_n_n_wf : DotDims.WF S200x256 S256x256 S200x256 [1] [0] [0] [1] [] []
  hrank0 : 0 < grid0.rank
  k0_off1_inb : ∀ i : grid0.Coords, ∀ (k0_h2 : k0_cond2 i = 1#1), ∀ a, (k0_off1 i) a + S200x256.size a ≤ S10000x256.size a
  k0_off1_packedbf16 : ∀ i : grid0.Coords, ∀ (k0_h2 : k0_cond2 i = 1#1), (Rect.unit (s := S10000x256) (k0_off1 i) S200x256.size (k0_off1_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x256.size a ≤ S10000x256.size a
  hwx0_8 : ∀ i : grid0.Coords, EltTy.bits .f32 = 32 ∨ (Rect.block (s := S10000x256) S200x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S10000x1.size a
  hwx0_9 : ∀ i : grid0.Coords, EltTy.bits .f32 = 32 ∨ (Rect.block (s := S10000x1) S200x1.size (cc0_transform_9 i) (hinb0_9 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S200x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S200x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | 9 => fun i => !(k0_cond3 i == 1#1) | ⟨_ + 10, h⟩ => absurd h (Nat.not_lt.2 (Nat.le_add_left _ _))

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩
abbrev S256x1 : Shape := ⟨2, ![256, 1]⟩
abbrev S10000x1 : Shape := ⟨2, ![10000, 1]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1x256, .f32⟩
  | .hbm, ⟨7, _⟩ => ⟨S1, .f32⟩
  | .hbm, ⟨8, _⟩ => ⟨S10000x256, .f32⟩
  | .hbm, ⟨9, _⟩ => ⟨S10000x256, .f32⟩
  | .hbm, ⟨10, _⟩ => ⟨S1x256, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x256, .f32⟩
  | .hbm, ⟨15, _⟩ => ⟨S10000x256, .f32⟩
  | .hbm, ⟨16, _⟩ => ⟨S10000x256, .f32⟩
  | .hbm, ⟨17, _⟩ => ⟨S10000x256, .f32⟩
  | .hbm, ⟨18, _⟩ => ⟨S1x256, .f32⟩
  | .hbm, ⟨19, _⟩ => ⟨S10000x256, .f32⟩
  | .hbm, ⟨20, _⟩ => ⟨S10000x256, .f32⟩
  | .hbm, ⟨21, _⟩ => ⟨S_, .f32⟩
  | .hbm, ⟨22, _⟩ => ⟨S10000x256, .f32⟩
  | .hbm, ⟨23, _⟩ => ⟨S10000x256, .f32⟩
  | .hbm, ⟨24, _⟩ => ⟨S256x1, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  transposes_S1x256_S256x1_1_0 : S1x256.Transposes [1, 0] S256x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x1_S10000x1_1_0_0_1_n_n_wf : DotDims.WF S10000x256 S256x1 S10000x1 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

class Facts : Prop extends Facts₀ where

variable [Facts]
-- ==== Proof.KbConds.lean ====
/-
  The kernel body's three branch conditions as propositions of the grid point, and what the grid decides of them:
  the first branch (fill the first scratch with x·W1) is taken at point 0 only; the second (one 200-row slab of the
  second scratch) at points 0..49, where the slab starts at row 200·t; the third (the two results' blocks) at points
  50..99. The two results' windows are written back exactly at the points 50..99, point t carrying block t - 50, and
  are idle at the points 0..49; the eight inputs are never idle.
-/
import proofs.«157216_g52089363366198_cont_9to1_m_650_6_alg».proof.Proof.Gen.Kernel.Frame
import proofs.«157216_g52089363366198_cont_9to1_m_650_6_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-- The first branch's condition (layer 0 and row block 0), from the grid coordinates. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (layer 0). -/
abbrev cond1 (i : grid0.Coords) : Prop := k0_cond2 i = 1#1
/-- The third branch's condition (layer 1). -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 50 :=
  (by decide +kernel : ∀ t : Fin grid0.N, cond1 (grid0.coords t) ↔ t.val < 50)
theorem hcond2 : ∀ t : Fin cfg0.N, cond2 (grid0.coords t) ↔ 50 ≤ t.val :=
  (by decide +kernel : ∀ t : Fin grid0.N, cond2 (grid0.coords t) ↔ 50 ≤ t.val)

/-- In layer 0 the slab the point stores into the second scratch starts at row 200·t, column 0. -/
theorem off1_row : ∀ t : Fin cfg0.N, t.val < 50 → k0_off1 (grid0.coords t) 0 = 200 * t.val :=
  (by decide +kernel : ∀ t : Fin grid0.N, t.val < 50 → k0_off1 (grid0.coords t) 0 = 200 * t.val)
theorem off1_col : ∀ t : Fin cfg0.N, k0_off1 (grid0.coords t) 1 = 0 :=
  (by decide +kernel : ∀ t : Fin grid0.N, k0_off1 (grid0.coords t) 1 = 0)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The two results' windows are idle exactly in layer 0, -/
theorem idle8 : ∀ t : Fin cfg0.N, cfg0.idle 8 (grid0.coords t) = decide (t.val < 50) := by decide +kernel
theorem idle9 : ∀ t : Fin cfg0.N, cfg0.idle 9 (grid0.coords t) = decide (t.val < 50) := by decide +kernel
/-- and written back exactly in layer 1, -/
theorem flush8 : ∀ t : Fin cfg0.N, (cfg0.win 8).flush t = decide (50 ≤ t.val) :=
  (by decide +kernel : ∀ t : Fin grid0.N, win0_8.flush t = decide (50 ≤ t.val))
theorem flush9 : ∀ t : Fin cfg0.N, (cfg0.win 9).flush t = decide (50 ≤ t.val) :=
  (by decide +kernel : ∀ t : Fin grid0.N, win0_9.flush t = decide (50 ≤ t.val))
/-- point t of layer 1 carrying row block t - 50. -/
theorem index8 : ∀ t : Fin cfg0.N, 50 ≤ t.val → win0_8.index t (0 : Fin 2) = t.val - 50 ∧ win0_8.index t (1 : Fin 2) = 0 :=
  (by decide +kernel : ∀ t : Fin grid0.N, 50 ≤ t.val → win0_8.index t (0 : Fin 2) = t.val - 50 ∧ win0_8.index t (1 : Fin 2) = 0)
theorem index9 : ∀ t : Fin cfg0.N, 50 ≤ t.val → win0_9.index t (0 : Fin 2) = t.val - 50 ∧ win0_9.index t (1 : Fin 2) = 0 :=
  (by decide +kernel : ∀ t : Fin grid0.N, 50 ≤ t.val → win0_9.index t (0 : Fin 2) = t.val - 50 ∧ win0_9.index t (1 : Fin 2) = 0)
/-- The adjacency window's block at point t is row block t mod 50. -/
theorem index0 : ∀ t : Fin cfg0.N, win0_0.index t (0 : Fin 2) = t.val % 50 ∧ win0_0.index t (1 : Fin 2) = 0 :=
  (by decide +kernel : ∀ t : Fin grid0.N, win0_0.index t (0 : Fin 2) = t.val % 50 ∧ win0_0.index t (1 : Fin 2) = 0)

end Cert.Kernel.Hand

end
-- ==== Proof.KbData.lean ====
/-
  The pipeline's proof data for the fused two-layer kernel.

  Between grid points the kernel carries two scratch arrays. The first is written once, whole, at point 0: it holds
  s1 = x·W1 (`s1v`). The second is written one 200-row slab per point of layer 0: after point t its rows below
  200·(t+1) hold s2 = relu(adj·s1 + b1)·W2, row r computed at point r / 200 from that point's adjacency block
  (`s2v`, one function of the row and the column); the rows above still hold whatever the scratch held at entry. So the
  invariant between points says: the first scratch holds `s1v`, and the second holds SOME contents that agree with
  `s2v` on the rows written so far (`AgreesBelow`). From point 50 on all 10000 rows are written and the second scratch is
  `s2v` itself.

  The two results: at a point t of layer 1 the body leaves in their staging buffers the blocks
  relu(adj_t·s2 + b2) (`embBlk`) and its row sums against W3 plus b3 (`scoreBlk`); in layer 0 the body does not
  touch those buffers.
-/
import proofs.«157216_g52089363366198_cont_9to1_m_650_6_alg».proof.Proof.KbConds
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev pt0 : Fin cfg0.N := ⟨0, by rw [show cfg0.N = 100 from N_0]; omega⟩

/-- The two scratch arrays as whole memrefs. -/
abbrev scM0 : Memref sig .tc .vmem S10000x256 .bf16 := Memref.whole cc0_scratch0
abbrev scM1 : Memref sig .tc .vmem S10000x256 .bf16 := Memref.whole cc0_scratch1

/-- Each window's current staging memref at point `t`, as the pipeline passes it to the body, and its wholeness. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S200x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S200x1 .f32 := win0_9.stage (cfg0.slots t 9)
abbrev hs9 (t : Fin cfg0.N) : (ms9 t).IsWhole := hstage0_9 ((cfg0.slots t 9).cast nbuf0_9)

/-- The class invariant with the two scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch arrays hold -/

/-- The first scratch after point 0: s1 = x·W1, from the x and W1 blocks the first point is handed. -/
def s1v (c : Dev nD) : Vec F S10000x256 .bf16 := k0_pay1 (iblk m c 1 pt0) (iblk m c 2 pt0)

/-- The point of layer 0 that stores the slab holding row `r` of the second scratch. -/
def slabPt (r : Fin 10000) : Fin cfg0.N := ⟨r.val / 200, by have := r.isLt; rw [show cfg0.N = 100 from N_0]; omega⟩

/-- The second scratch once layer 0 is over: row r, column q is entry (r mod 200, q) of the slab
    relu(adj·s1 + b1)·W2 that point r / 200 computes from its own blocks. -/
def s2v (c : Dev nD) : Vec F S10000x256 .bf16 := fun idx =>
  k0_pay3 (iblk m c 0 (slabPt (idx 0))) (s1v m c) (iblk m c 3 (slabPt (idx 0))) (iblk m c 4 (slabPt (idx 0)))
    (ValueIdx.ix2 (⟨(idx 0).val % 200, Nat.mod_lt _ (by omega)⟩ : Fin 200) (idx 1))

/-- Contents of the second scratch that agree with `s2v` on the rows below 200·k: what it holds after k points. -/
def AgreesBelow (c : Dev nD) (k : ℕ) (d : Vec F S10000x256 .bf16) : Prop :=
  ∀ idx : S10000x256.Idx, (idx 0).val < 200 * k → d idx = s2v m c idx

theorem AgreesBelow.zero (c : Dev nD) (d : Vec F S10000x256 .bf16) : AgreesBelow m c 0 d :=
  fun idx h => absurd h (by omega)

/-- Once all fifty slabs are written the second scratch is `s2v`. -/
theorem AgreesBelow.eq_of_le (c : Dev nD) {k : ℕ} (hk : 50 ≤ k) {d : Vec F S10000x256 .bf16} (h : AgreesBelow m c k d) :
    d = s2v m c :=
  funext fun idx => h idx (by have := ValueIdx.idx2_lt0 idx; omega)

theorem AgreesBelow.of_eq (c : Dev nD) (k : ℕ) : AgreesBelow m c k (s2v m c) := fun _ _ => rfl

/-! ## What the body leaves in the results' staging buffers at a point of layer 1 -/

/-- relu(adj_t·s2 + b2): the block of the embedding result. -/
def embBlk (c : Dev nD) (t : Fin cfg0.N) : Vec F S200x256 .f32 := k0_pay4 (iblk m c 0 t) (s2v m c) (iblk m c 5 t)
/-- Its rows summed against W3, plus b3: the block of the score result. -/
def scoreBlk (c : Dev nD) (t : Fin cfg0.N) : Vec F S200x1 .f32 := k0_pay5 (iblk m c 0 t) (s2v m c) (iblk m c 5 t) (iblk m c 6 t) (iblk m c 7 t)

/-! ## The invariant between points -/

/-- Before the first point the class invariant (both scratch arrays at anything); after point n the first scratch at
    `s1v`, the second at contents agreeing with `s2v` below row 200·(n+1), and the generator register at some state. -/
def PhiH (c : Dev nD) : (n : ℕ) → n ≤ cfg0.N → sProp 𝕄
  | 0, _ => Pipeline.ΦA spec0 c
  | n + 1, _ => iprop(iprop(owns (c : Thread nD τ) scM0 fullShare (s1v m c) ∗ (∃ d, ⌜AgreesBelow m c (n + 1) d⌝ ∗ owns (c : Thread nD τ) scM1 fullShare d)) ∗ (∃ r, prngReg c r))

theorem PhiH_zero (c : Dev nD) (n : ℕ) (h : n ≤ cfg0.N) (hz : n = 0) : PhiH m c n h = Pipeline.ΦA spec0 c := by
  subst hz; rfl

theorem PhiH_succ (c : Dev nD) (n : ℕ) (hn : n + 1 ≤ cfg0.N) :
    PhiH m c (n + 1) hn = iprop(iprop(owns (c : Thread nD τ) scM0 fullShare (s1v m c) ∗ (∃ d, ⌜AgreesBelow m c (n + 1) d⌝ ∗ owns (c : Thread nD τ) scM1 fullShare d)) ∗ (∃ r, prngReg c r)) := rfl

theorem PhiH_pos (c : Dev nD) (n : ℕ) (h : n ≤ cfg0.N) (hz : n ≠ 0) :
    PhiH m c n h = iprop(iprop(owns (c : Thread nD τ) scM0 fullShare (s1v m c) ∗ (∃ d, ⌜AgreesBelow m c n d⌝ ∗ owns (c : Thread nD τ) scM1 fullShare d)) ∗ (∃ r, prngReg c r)) := by
  cases n with
  | zero => exact absurd rfl hz
  | succ n => rfl

/-! ## The proof data -/

/-- The arrays as the region finds them; after the body each input's buffer at its block, the two results' at
    `embBlk` and `scoreBlk` (consulted at the points of layer 1 only: in layer 0 their windows are idle); the
    invariant `PhiH`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => embBlk m c t
    | ⟨9, _⟩ => scoreBlk m c t
  Φ t := PhiH m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiH m c t.val (Nat.le_of_lt t.isLt) := by
  dsimp only [dats]; simp only [Fin.coe_castSucc]

theorem Phi_succ (c : Dev nD) (t : Fin cfg0.N) :
    (dats m 0 c).Φ t.succ = PhiH m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = embBlk m c t := by dsimp only [dats]
theorem after_9 (c : Dev nD) (t : Fin cfg0.N) : (dats m 0 c).after 9 t = scoreBlk m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.Kernel.Hand

end
-- ==== Proof.KbRunA.lean ====
/-
  The kernel body run whole at the grid's first point: the first two branches taken (the first scratch filled with the product of the x block and the W1 block, then slab 0 of the second scratch stored), the third not. Both results' staging buffers are handed back as found; the first scratch, found at anything, is handed back with its one whole-buffer piece written, the second scratch with the slab's piece written over what it held.
-/
import proofs.«157216_g52089363366198_cont_9to1_m_650_6_alg».proof.Proof.KbConds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs1 : Vec F S10000x256 .bf16) :
    { L : List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ d, owns (c : Thread nD τ) arg12 fullShare d) ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ f, (arg12.view.loc (c : Thread nD τ) ↦[arg12.view.set]{fullShare} arg12.view.writes (Elt F) f L.1)) ∗ (arg13.view.loc (c : Thread nD τ) ↦[arg13.view.set]{fullShare} arg13.view.writes (Elt F) (harg13.unread xs1) L.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexact HS1

end Cert.Kernel.Hand

end
-- ==== Proof.KbRunB.lean ====
/-
  The kernel body run whole at a point of layer 0 after the first: only the second branch taken (the point's slab of the second scratch stored, from the first scratch as the first point left it). Both results' staging buffers and the first scratch are handed back as found, the second scratch with the slab's piece written over what it held.
-/
import proofs.«157216_g52089363366198_cont_9to1_m_650_6_alg».proof.Proof.KbConds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs0 : Vec F S10000x256 .bf16) (xs1 : Vec F S10000x256 .bf16) :
    { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    iexact HS1

end Cert.Kernel.Hand

end
-- ==== Proof.KbRunC.lean ====
/-
  The kernel body run whole at a point of layer 1: only the third branch taken (the two results' blocks computed from the whole second scratch and stored). Both scratches are handed back as found; each result's staging buffer, found at anything, is handed back with its one whole-buffer piece written.
-/
import proofs.«157216_g52089363366198_cont_9to1_m_650_6_alg».proof.Proof.KbConds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : ¬cond1 i) (hc2 : cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (xs0 : Vec F S10000x256 .bf16) (xs1 : Vec F S10000x256 .bf16) :
    { L : List (View.Piece (Elt F) S200x256 .f32) × List (View.Piece (Elt F) S200x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg10.view.loc (c : Thread nD τ) ↦[arg10.view.set]{fullShare} arg10.view.writes (Elt F) f L.1)) ∗ (∃ f, (arg11.view.loc (c : Thread nD τ) ↦[arg11.view.set]{fullShare} arg11.view.writes (Elt F) f L.2)) ∗ owns (c : Thread nD τ) arg12 fullShare xs0 ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexists _; isplitr; · ipureintro; exact harg13.read_unread _
    iexact HS1

end Cert.Kernel.Hand

end
-- ==== Proof.KbRead.lean ====
/-
  What the three whole-body runs leave, in closed form. Each run's witness is a list of stores; every load in it is a
  whole-buffer load of contents the run was handed, so each stored value is the body's named function of those
  contents: at point 0 the first scratch gets x·W1 and slab 0 of the second scratch gets the slab computed FROM that
  product; at a later point of layer 0 the point's slab is computed from the first scratch as handed; at a point of
  layer 1 the two results' buffers get their blocks. Then two facts about one slab store over known contents: inside
  the slab the buffer reads the stored value, outside it what it held.
-/
import proofs.«157216_g52089363366198_cont_9to1_m_650_6_alg».proof.Proof.KbRunA
import proofs.«157216_g52089363366198_cont_9to1_m_650_6_alg».proof.Proof.KbRunB
import proofs.«157216_g52089363366198_cont_9to1_m_650_6_alg».proof.Proof.KbRunC
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

theorem hz2 : (![0, 0] : Fin 2 → Nat) = fun _ => 0 := by
  funext a; match a with | ⟨0, _⟩ => rfl | ⟨1, _⟩ => rfl

/-- Point 0: the first scratch stored whole with x·W1, then slab `k0_off1 i` of the second with the slab computed from it. -/
theorem runA_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs1 : Vec F S10000x256 .bf16) :
    (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y8 y9 xs1).1
      = ([⟨Rect.unit (s := S10000x256) ![0, 0] S10000x256.size inb_S10000x256_S10000x256_0_0, k0_pay1 x1 x2⟩],
         [⟨Rect.unit (s := S10000x256) (k0_off1 i) S200x256.size (k0_off1_inb i hc1), k0_pay3 x0 (k0_pay1 x1 x2) x3 x4⟩]) := by
  unfold runA
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2, View.readCov_unit_zero (S := S10000x256) _ hz2]

/-- A later point of layer 0: the point's slab of the second scratch, computed from the first scratch as handed. -/
theorem runB_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs0 : Vec F S10000x256 .bf16) (xs1 : Vec F S10000x256 .bf16) :
    (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y8 y9 xs0 xs1).1
      = [⟨Rect.unit (s := S10000x256) (k0_off1 i) S200x256.size (k0_off1_inb i hc1), k0_pay3 x0 xs0 x3 x4⟩] := by
  unfold runB
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2]

/-- A point of layer 1: each result's staging buffer stored whole with its block. -/
theorem runC_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : ¬cond1 i) (hc2 : cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (xs0 : Vec F S10000x256 .bf16) (xs1 : Vec F S10000x256 .bf16) :
    (runC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1
      = ([⟨Rect.unit (s := S200x256) ![0, 0] S200x256.size inb_S200x256_S200x256_0_0, k0_pay4 x0 xs1 x5⟩],
         [⟨Rect.unit (s := S200x1) ![0, 0] S200x1.size inb_S200x1_S200x1_0_0, k0_pay5 x0 xs1 x5 x6 x7⟩]) := by
  unfold runC
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2]

/-- One store through the whole-buffer rectangle leaves its value, whatever the buffer held. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- After one store of a 200-row slab starting at row `off 0`, column 0: a row inside the slab reads the stored value
    at its row within the slab. -/
theorem slab_read_in (M : Memref sig .tc .vmem S10000x256 .bf16) (f : M.view.ty.Contents (Elt F)) (off : Fin 2 → Nat)
    (inb : ∀ a, off a + S200x256.size a ≤ S10000x256.size a) (w : Vec F S200x256 .bf16)
    (idx : S10000x256.Idx) (p : Fin 200) (h0 : (idx 0).val = off 0 + p.val) (h1 : off 1 = 0) :
    M.view.read (Elt F) (M.view.writes (Elt F) f [⟨Rect.unit (s := S10000x256) off S200x256.size inb, w⟩]) idx
      = w (ValueIdx.ix2 p (idx 1)) := by
  have e : (Rect.unit (s := S10000x256) off S200x256.size inb).emb (ValueIdx.ix2 p (idx 1)) = idx := by
    funext a; apply Fin.ext; rw [Rect.emb_apply]
    match a with
    | ⟨0, _⟩ => show off 0 + 1 * p.val = (idx 0).val; omega
    | ⟨1, _⟩ => show off 1 + 1 * (idx 1).val = (idx 1).val; omega
  have h := View.read_writes_cons_emb M.view f (Rect.unit (s := S10000x256) off S200x256.size inb) w [] (ValueIdx.ix2 p (idx 1))
  rw [e] at h
  exact h

/-- and a row outside it reads what the buffer held. -/
theorem slab_read_out (M : Memref sig .tc .vmem S10000x256 .bf16) (f : M.view.ty.Contents (Elt F)) (off : Fin 2 → Nat)
    (inb : ∀ a, off a + S200x256.size a ≤ S10000x256.size a) (w : Vec F S200x256 .bf16)
    (idx : S10000x256.Idx) (h : (idx 0).val < off 0 ∨ off 0 + 200 ≤ (idx 0).val) :
    M.view.read (Elt F) (M.view.writes (Elt F) f [⟨Rect.unit (s := S10000x256) off S200x256.size inb, w⟩]) idx
      = M.view.read (Elt F) f idx := by
  refine View.read_writes_apply_of_forall_not_mem M.view f idx _ fun q hq => ?_
  rw [List.mem_singleton] at hq; subst hq
  show idx ∉ (Rect.unit (s := S10000x256) off S200x256.size inb).set
  rw [Rect.mem_set_unit]; intro hm
  have h2 := hm 0
  have hs : S200x256.size 0 = 200 := rfl
  rw [hs] at h2
  omega

end Cert.Kernel.Hand

end
-- ==== Proof.KbObl.lean ====
/-
  The body obligation's two sides at a grid point, window by window, and the one pure step of the invariant: storing
  the slab that point t computes (rows 200·t .. 200·t + 199) into contents that agree with the second scratch's final
  value below row 200·t gives contents that agree with it below row 200·(t + 1) — outside the slab nothing changed,
  and inside it the stored value is, by definition, that final value's row block t.
-/
import proofs.«157216_g52089363366198_cont_9to1_m_650_6_alg».proof.Proof.KbData
import proofs.«157216_g52089363366198_cont_9to1_m_650_6_alg».proof.Proof.KbRead

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One more slab: from agreement below row 200·t to agreement below row 200·(t + 1). -/
theorem agrees_step (c : Dev nD) (t : Fin cfg0.N) (ht : t.val < 50) (d : Vec F S10000x256 .bf16)
    (hd : AgreesBelow m c t.val d) (hw : (scM1 : Memref sig .tc .vmem S10000x256 .bf16).IsWhole)
    (inb : ∀ a, k0_off1 (grid0.coords t) a + S200x256.size a ≤ S10000x256.size a) :
    AgreesBelow m c (t.val + 1) (scM1.view.read (Elt F) (scM1.view.writes (Elt F) (hw.unread d)
      [⟨Rect.unit (s := S10000x256) (k0_off1 (grid0.coords t)) S200x256.size inb,
        k0_pay3 (iblk m c 0 t) (s1v m c) (iblk m c 3 t) (iblk m c 4 t)⟩])) := by
  intro idx hlt
  by_cases h : (idx 0).val < 200 * t.val
  · rw [slab_read_out scM1 _ _ inb _ idx (Or.inl (by rw [off1_row t ht]; exact h)), hw.read_unread]
    exact hd idx h
  · have hp : (idx 0).val - 200 * t.val < 200 := by omega
    rw [slab_read_in scM1 _ _ inb _ idx ⟨(idx 0).val - 200 * t.val, hp⟩
      (by rw [off1_row t ht]; show (idx 0).val = 200 * t.val + ((idx 0).val - 200 * t.val); omega) (off1_col t)]
    have e : slabPt (idx 0) = t := Fin.ext (by show (idx 0).val / 200 = t.val; omega)
    have e2 : (⟨(idx 0).val - 200 * t.val, hp⟩ : Fin 200) = ⟨(idx 0).val % 200, Nat.mod_lt _ (by omega)⟩ :=
      Fin.ext (by show (idx 0).val - 200 * t.val = (idx 0).val % 200; omega)
    unfold s2v
    rw [e, e2]

/-! ## The obligation's sides -/

/-- What the body is handed at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input's buffer is left at its block. -/
theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_2 (c : Dev nD) (t : Fin cfg0.N) :
    (dats m 0 c).leavesExact 2 t = owns (c : Thread nD τ) (ms2 t) fullShare (iblk m c 2 t) := by
  unfold Dat.leavesExact; rw [live2 t, after_2]
theorem leaves_3 (c : Dev nD) (t : Fin cfg0.N) :
    (dats m 0 c).leavesExact 3 t = owns (c : Thread nD τ) (ms3 t) fullShare (iblk m c 3 t) := by
  unfold Dat.leavesExact; rw [live3 t, after_3]
theorem leaves_4 (c : Dev nD) (t : Fin cfg0.N) :
    (dats m 0 c).leavesExact 4 t = owns (c : Thread nD τ) (ms4 t) fullShare (iblk m c 4 t) := by
  unfold Dat.leavesExact; rw [live4 t, after_4]
theorem leaves_5 (c : Dev nD) (t : Fin cfg0.N) :
    (dats m 0 c).leavesExact 5 t = owns (c : Thread nD τ) (ms5 t) fullShare (iblk m c 5 t) := by
  unfold Dat.leavesExact; rw [live5 t, after_5]
theorem leaves_6 (c : Dev nD) (t : Fin cfg0.N) :
    (dats m 0 c).leavesExact 6 t = owns (c : Thread nD τ) (ms6 t) fullShare (iblk m c 6 t) := by
  unfold Dat.leavesExact; rw [live6 t, after_6]
theorem leaves_7 (c : Dev nD) (t : Fin cfg0.N) :
    (dats m 0 c).leavesExact 7 t = owns (c : Thread nD τ) (ms7 t) fullShare (iblk m c 7 t) := by
  unfold Dat.leavesExact; rw [live7 t, after_7]

/-- In layer 0 a result's buffer is left as found; -/
theorem leaves_8_idle (c : Dev nD) (t : Fin cfg0.N) (ht : t.val < 50) :
    (dats m 0 c).leavesExact 8 t = iprop(∃ d, owns (c : Thread nD τ) (ms8 t) fullShare ((dats m 0 c).before 8 t d)) :=
  Dat.leavesExact_idle _ 8 t (by rw [idle8 t]; exact decide_eq_true ht) (by rw [flush8 t]; exact decide_eq_false (by omega))
theorem leaves_9_idle (c : Dev nD) (t : Fin cfg0.N) (ht : t.val < 50) :
    (dats m 0 c).leavesExact 9 t = iprop(∃ d, owns (c : Thread nD τ) (ms9 t) fullShare ((dats m 0 c).before 9 t d)) :=
  Dat.leavesExact_idle _ 9 t (by rw [idle9 t]; exact decide_eq_true ht) (by rw [flush9 t]; exact decide_eq_false (by omega))

/-- in layer 1 at its block. -/
theorem leaves_8_live (c : Dev nD) (t : Fin cfg0.N) (ht : 50 ≤ t.val) :
    (dats m 0 c).leavesExact 8 t = owns (c : Thread nD τ) (ms8 t) fullShare (embBlk m c t) := by
  unfold Dat.leavesExact; rw [idle8 t, decide_eq_false (by omega), after_8]
theorem leaves_9_live (c : Dev nD) (t : Fin cfg0.N) (ht : 50 ≤ t.val) :
    (dats m 0 c).leavesExact 9 t = owns (c : Thread nD τ) (ms9 t) fullShare (scoreBlk m c t) := by
  unfold Dat.leavesExact; rw [idle9 t, decide_eq_false (by omega), after_9]

end Cert.Kernel.Hand

end
-- ==== Proof.KbBodyA.lean ====
/-
  The body obligation at the grid's first point: both scratch arrays are found at anything; the body fills the first with x·W1 and slab 0 of the second, which then agrees with its final value below row 200; the results' buffers go back as found.
-/
import proofs.«157216_g52089363366198_cont_9to1_m_650_6_alg».proof.Proof.KbObl

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = pt0 := Fin.ext hA
  unfold bodyPre bodyPost bodyAt0
  simp only [before_0, before_1, before_2, before_3, before_4, before_5, before_6, before_7]
  rw [show (dats m 0 c).owesAt () pt0.succ = (dats m 0 c).owesAt () pt0.castSucc from rfl]
  rw [Phi_succ, PhiH_succ]
  rw [leaves_0, leaves_1, leaves_2, leaves_3, leaves_4, leaves_5, leaves_6, leaves_7]
  rw [leaves_8_idle m c pt0 (by show (0 : ℕ) < 50; omega), leaves_9_idle m c pt0 (by show (0 : ℕ) < 50; omega)]
  rw [Phi_castSucc m c pt0, PhiH_zero m c _ _ rfl, PhiA_eq]
  iintro ⟨⟨⟨HS0, ⟨%dS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords pt0) _ _ _ _ _ _ _ _ _ _ _ _ _ _ _ _ _ _ _ _ _ _ _ _ ((hcond0 pt0).mpr rfl) ((hcond1 pt0).mpr (by show (0 : ℕ) < 50; omega)) (fun h => absurd ((hcond2 pt0).mp h) (by show ¬(50 ≤ (0 : ℕ)); omega)) (iblk m c 0 pt0) (iblk m c 1 pt0) (iblk m c 2 pt0) (iblk m c 3 pt0) (iblk m c 4 pt0) (iblk m c 5 pt0) (iblk m c 6 pt0) (iblk m c 7 pt0) ((dats m 0 c).before 8 pt0 d8) ((dats m 0 c).before 9 pt0 d9) dS).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, ⟨%f0, HS0⟩, HS1⟩
  isplitl [HS0 HS1 Hg]
  · isplitl [HS0 HS1]
    · isplitl [HS0]
      · unfold owns; iexists _; isplitr
        swap; · iexact HS0
        ipureintro
        rw [runA_pieces]
        exact read_whole_store _ _ hz2 _ _
      · iexists _; isplitr
        swap
        · unfold owns; iexists _; isplitr
          swap; · iexact HS1
          ipureintro; rfl
        ipureintro
        rw [runA_pieces]
        exact agrees_step m c pt0 (by show (0 : ℕ) < 50; omega) dS (AgreesBelow.zero m c dS) _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

end Cert.Kernel.Hand

end
-- ==== Proof.KbBodyB.lean ====
/-
  The body obligation at a point t of layer 0 after the first: the first scratch is found at x·W1 and goes back so; the second, found agreeing with its final value below row 200·t, gets the point's slab and agrees below row 200·(t + 1); the results' buffers go back as found.
-/
import proofs.«157216_g52089363366198_cont_9to1_m_650_6_alg».proof.Proof.KbObl

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (hA : t.val ≠ 0) (hB : t.val < 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_succ, PhiH_succ]
  rw [leaves_0, leaves_1, leaves_2, leaves_3, leaves_4, leaves_5, leaves_6, leaves_7]
  rw [leaves_8_idle m c t hB, leaves_9_idle m c t hB]
  rw [Phi_castSucc m c t, PhiH_pos m c _ _ hA]
  iintro ⟨⟨⟨HS0, ⟨%dS, %hdS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ _ _ (fun h => hA ((hcond0 t).mp h)) ((hcond1 t).mpr hB) (fun h => absurd ((hcond2 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (s1v m c) dS).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      · iexists _; isplitr
        swap
        · unfold owns; iexists _; isplitr
          swap; · iexact HS1
          ipureintro; rfl
        ipureintro
        rw [runB_pieces]
        exact agrees_step m c t hB dS hdS _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

end Cert.Kernel.Hand

end
-- ==== Proof.KbBodyC.lean ====
/-
  The body obligation at a point t of layer 1: all fifty slabs are written, so the second scratch is found at its final value; both scratch arrays go back as found, and each result's buffer, found at anything, is left at the point's block.
-/
import proofs.«157216_g52089363366198_cont_9to1_m_650_6_alg».proof.Proof.KbObl

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (hC : 50 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_succ, PhiH_succ]
  rw [leaves_0, leaves_1, leaves_2, leaves_3, leaves_4, leaves_5, leaves_6, leaves_7]
  rw [leaves_8_live m c t hC, leaves_9_live m c t hC]
  rw [Phi_castSucc m c t, PhiH_pos m c _ _ (by omega)]
  iintro ⟨⟨⟨HS0, ⟨%d1, %hd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := AgreesBelow.eq_of_le m c hC hd1
  iapply ((runC c (grid0.coords t) _ _ _ _ _ _ _ _ _ _ _ _ _ _ _ _ _ _ _ _ _ _ _ _ (fun h => absurd ((hcond0 t).mp h) (by omega)) (fun h => absurd ((hcond1 t).mp h) (by omega)) ((hcond2 t).mpr hC) (iblk m c 0 t) (iblk m c 1 t) (iblk m c 2 t) (iblk m c 3 t) (iblk m c 4 t) (iblk m c 5 t) (iblk m c 6 t) (iblk m c 7 t) (s1v m c) (s2v m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, ⟨%f8, H8⟩, ⟨%f9, H9⟩, HS0, HS1⟩
  isplitl [HS0 HS1 Hg]
  · isplitl [HS0 HS1]
    · isplitl [HS0]
      · iexact HS0
      · iexists _; isplitr
        swap; · iexact HS1
        ipureintro
        exact AgreesBelow.of_eq m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [runC_pieces]
    exact read_whole_store _ _ hz2 _ _
  unfold owns; iexists _; isplitr
  swap; · iexact H9
  ipureintro
  rw [runC_pieces]
  exact read_whole_store _ _ hz2 _ _

end Cert.Kernel.Hand

end
-- ==== Proof.KbFrame.lean ====
/-
  The frame. The three cases cover the grid (point 0; points 1..49; points 50..99), so the body obligation holds at
  every point. Before the first point the invariant is the class's own (both scratch arrays at anything); after the
  last it gives that back by forgetting what the scratch arrays hold. The pipeline's launch theorem then runs @main:
  every weakly fair execution terminates, each windowed array ends at what the proof data computes, and every other
  unscoped buffer at what it held when the region was entered; read at the argument arrays this is the frame claim.
-/
import proofs.«157216_g52089363366198_cont_9to1_m_650_6_alg».proof.Proof.KbBodyA
import proofs.«157216_g52089363366198_cont_9to1_m_650_6_alg».proof.Proof.KbBodyB
import proofs.«157216_g52089363366198_cont_9to1_m_650_6_alg».proof.Proof.KbBodyC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  · by_cases hB : t.val < 50
    · exact sound_B m c t hA hB
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiH m c 0 (Nat.zero_le _) from rfl, PhiH_zero m c 0 _ rfl]
  try exact Idealize.SL.BI.Entails.refl _

/-- After the last point the invariant gives the class's back: what the scratch arrays hold is forgotten. -/
theorem hout (c : Dev nD) : (dats m 0 c).Φ (Fin.last cfg0.N) ⊢ Pipeline.ΦA spec0 c := by
  rw [show (dats m 0 c).Φ (Fin.last cfg0.N) = PhiH m c (Fin.last cfg0.N).val (Nat.le_of_lt_succ (Fin.last cfg0.N).isLt) from rfl,
    PhiH_pos m c _ _ (by rw [Fin.val_last]; have : cfg0.N = 100 := N_0; omega), PhiA_eq]
  iintro ⟨⟨HS0, ⟨%d, %hd, HS1⟩⟩, Hg⟩
  isplitl [HS0 HS1]
  · isplitl [HS0]
    · iexists _; iexact HS0
    iexists _; iexact HS1
  iexact Hg

set_option backward.isDefEq.respectTransparency.types false in
/-- Every weakly fair execution of @main terminates; each windowed array ends at what the proof data computes
    (an input unchanged, a result its write-backs), every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KiConds.lean ====
/-
  The kernel body's three branch conditions as propositions of the grid point, and what the grid decides of them:
  the first branch (fill the first scratch with x·W1) is taken at point 0 only; the second (one 200-row slab of the
  second scratch) at points 0..49, where the slab starts at row 200·t; the third (the two results' blocks) at points
  50..99. The two results' windows are written back exactly at the points 50..99, point t carrying block t - 50, and
  are idle at the points 0..49; the eight inputs are never idle.
-/
import proofs.«157216_g52089363366198_cont_9to1_m_650_6_alg».proof.Proof.Gen.KernelIdeal.Frame
import proofs.«157216_g52089363366198_cont_9to1_m_650_6_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The first branch's condition (layer 0 and row block 0), from the grid coordinates. -/
abbrev cond0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch's condition (layer 0). -/
abbrev cond1 (i : grid0.Coords) : Prop := k0_cond2 i = 1#1
/-- The third branch's condition (layer 1). -/
abbrev cond2 (i : grid0.Coords) : Prop := k0_cond3 i = 1#1

theorem hcond0 : ∀ t : Fin cfg0.N, cond0 (grid0.coords t) ↔ t.val = 0 :=
  (by decide +kernel : ∀ t : Fin grid0.N, cond0 (grid0.coords t) ↔ t.val = 0)
theorem hcond1 : ∀ t : Fin cfg0.N, cond1 (grid0.coords t) ↔ t.val < 50 :=
  (by decide +kernel : ∀ t : Fin grid0.N, cond1 (grid0.coords t) ↔ t.val < 50)
theorem hcond2 : ∀ t : Fin cfg0.N, cond2 (grid0.coords t) ↔ 50 ≤ t.val :=
  (by decide +kernel : ∀ t : Fin grid0.N, cond2 (grid0.coords t) ↔ 50 ≤ t.val)

/-- In layer 0 the slab the point stores into the second scratch starts at row 200·t, column 0. -/
theorem off1_row : ∀ t : Fin cfg0.N, t.val < 50 → k0_off1 (grid0.coords t) 0 = 200 * t.val :=
  (by decide +kernel : ∀ t : Fin grid0.N, t.val < 50 → k0_off1 (grid0.coords t) 0 = 200 * t.val)
theorem off1_col : ∀ t : Fin cfg0.N, k0_off1 (grid0.coords t) 1 = 0 :=
  (by decide +kernel : ∀ t : Fin grid0.N, k0_off1 (grid0.coords t) 1 = 0)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The two results' windows are idle exactly in layer 0, -/
theorem idle8 : ∀ t : Fin cfg0.N, cfg0.idle 8 (grid0.coords t) = decide (t.val < 50) := by decide +kernel
theorem idle9 : ∀ t : Fin cfg0.N, cfg0.idle 9 (grid0.coords t) = decide (t.val < 50) := by decide +kernel
/-- and written back exactly in layer 1, -/
theorem flush8 : ∀ t : Fin cfg0.N, (cfg0.win 8).flush t = decide (50 ≤ t.val) :=
  (by decide +kernel : ∀ t : Fin grid0.N, win0_8.flush t = decide (50 ≤ t.val))
theorem flush9 : ∀ t : Fin cfg0.N, (cfg0.win 9).flush t = decide (50 ≤ t.val) :=
  (by decide +kernel : ∀ t : Fin grid0.N, win0_9.flush t = decide (50 ≤ t.val))
/-- point t of layer 1 carrying row block t - 50. -/
theorem index8 : ∀ t : Fin cfg0.N, 50 ≤ t.val → win0_8.index t (0 : Fin 2) = t.val - 50 ∧ win0_8.index t (1 : Fin 2) = 0 :=
  (by decide +kernel : ∀ t : Fin grid0.N, 50 ≤ t.val → win0_8.index t (0 : Fin 2) = t.val - 50 ∧ win0_8.index t (1 : Fin 2) = 0)
theorem index9 : ∀ t : Fin cfg0.N, 50 ≤ t.val → win0_9.index t (0 : Fin 2) = t.val - 50 ∧ win0_9.index t (1 : Fin 2) = 0 :=
  (by decide +kernel : ∀ t : Fin grid0.N, 50 ≤ t.val → win0_9.index t (0 : Fin 2) = t.val - 50 ∧ win0_9.index t (1 : Fin 2) = 0)
/-- The adjacency window's block at point t is row block t mod 50. -/
theorem index0 : ∀ t : Fin cfg0.N, win0_0.index t (0 : Fin 2) = t.val % 50 ∧ win0_0.index t (1 : Fin 2) = 0 :=
  (by decide +kernel : ∀ t : Fin grid0.N, win0_0.index t (0 : Fin 2) = t.val % 50 ∧ win0_0.index t (1 : Fin 2) = 0)

end Cert.KernelIdeal.Hand

end
-- ==== Proof.KiData.lean ====
/-
  The pipeline's proof data for the fused two-layer kernel.

  Between grid points the kernel carries two scratch arrays. The first is written once, whole, at point 0: it holds
  s1 = x·W1 (`s1v`). The second is written one 200-row slab per point of layer 0: after point t its rows below
  200·(t+1) hold s2 = relu(adj·s1 + b1)·W2, row r computed at point r / 200 from that point's adjacency block
  (`s2v`, one function of the row and the column); the rows above still hold whatever the scratch held at entry. So the
  invariant between points says: the first scratch holds `s1v`, and the second holds SOME contents that agree with
  `s2v` on the rows written so far (`AgreesBelow`). From point 50 on all 10000 rows are written and the second scratch is
  `s2v` itself.

  The two results: at a point t of layer 1 the body leaves in their staging buffers the blocks
  relu(adj_t·s2 + b2) (`embBlk`) and its row sums against W3 plus b3 (`scoreBlk`); in layer 0 the body does not
  touch those buffers.
-/
import proofs.«157216_g52089363366198_cont_9to1_m_650_6_alg».proof.Proof.KiConds
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev pt0 : Fin cfg0.N := ⟨0, by rw [show cfg0.N = 100 from N_0]; omega⟩

/-- The two scratch arrays as whole memrefs. -/
abbrev scM0 : Memref sig .tc .vmem S10000x256 .bf16 := Memref.whole cc0_scratch0
abbrev scM1 : Memref sig .tc .vmem S10000x256 .bf16 := Memref.whole cc0_scratch1

/-- Each window's current staging memref at point `t`, as the pipeline passes it to the body, and its wholeness. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S200x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S200x1 .f32 := win0_9.stage (cfg0.slots t 9)
abbrev hs9 (t : Fin cfg0.N) : (ms9 t).IsWhole := hstage0_9 ((cfg0.slots t 9).cast nbuf0_9)

/-- The class invariant with the two scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch arrays hold -/

/-- The first scratch after point 0: s1 = x·W1, from the x and W1 blocks the first point is handed. -/
def s1v (c : Dev nD) : Vec F S10000x256 .bf16 := k0_pay1 (iblk m c 1 pt0) (iblk m c 2 pt0)

/-- The point of layer 0 that stores the slab holding row `r` of the second scratch. -/
def slabPt (r : Fin 10000) : Fin cfg0.N := ⟨r.val / 200, by have := r.isLt; rw [show cfg0.N = 100 from N_0]; omega⟩

/-- The second scratch once layer 0 is over: row r, column q is entry (r mod 200, q) of the slab
    relu(adj·s1 + b1)·W2 that point r / 200 computes from its own blocks. -/
def s2v (c : Dev nD) : Vec F S10000x256 .bf16 := fun idx =>
  k0_pay3 (iblk m c 0 (slabPt (idx 0))) (s1v m c) (iblk m c 3 (slabPt (idx 0))) (iblk m c 4 (slabPt (idx 0)))
    (ValueIdx.ix2 (⟨(idx 0).val % 200, Nat.mod_lt _ (by omega)⟩ : Fin 200) (idx 1))

/-- Contents of the second scratch that agree with `s2v` on the rows below 200·k: what it holds after k points. -/
def AgreesBelow (c : Dev nD) (k : ℕ) (d : Vec F S10000x256 .bf16) : Prop :=
  ∀ idx : S10000x256.Idx, (idx 0).val < 200 * k → d idx = s2v m c idx

theorem AgreesBelow.zero (c : Dev nD) (d : Vec F S10000x256 .bf16) : AgreesBelow m c 0 d :=
  fun idx h => absurd h (by omega)

/-- Once all fifty slabs are written the second scratch is `s2v`. -/
theorem AgreesBelow.eq_of_le (c : Dev nD) {k : ℕ} (hk : 50 ≤ k) {d : Vec F S10000x256 .bf16} (h : AgreesBelow m c k d) :
    d = s2v m c :=
  funext fun idx => h idx (by have := ValueIdx.idx2_lt0 idx; omega)

theorem AgreesBelow.of_eq (c : Dev nD) (k : ℕ) : AgreesBelow m c k (s2v m c) := fun _ _ => rfl

/-! ## What the body leaves in the results' staging buffers at a point of layer 1 -/

/-- relu(adj_t·s2 + b2): the block of the embedding result. -/
def embBlk (c : Dev nD) (t : Fin cfg0.N) : Vec F S200x256 .f32 := k0_pay4 (iblk m c 0 t) (s2v m c) (iblk m c 5 t)
/-- Its rows summed against W3, plus b3: the block of the score result. -/
def scoreBlk (c : Dev nD) (t : Fin cfg0.N) : Vec F S200x1 .f32 := k0_pay5 (iblk m c 0 t) (s2v m c) (iblk m c 5 t) (iblk m c 6 t) (iblk m c 7 t)

/-! ## The invariant between points -/

/-- Before the first point the class invariant (both scratch arrays at anything); after point n the first scratch at
    `s1v`, the second at contents agreeing with `s2v` below row 200·(n+1), and the generator register at some state. -/
def PhiH (c : Dev nD) : (n : ℕ) → n ≤ cfg0.N → sProp 𝕄
  | 0, _ => Pipeline.ΦA spec0 c
  | n + 1, _ => iprop(iprop(owns (c : Thread nD τ) scM0 fullShare (s1v m c) ∗ (∃ d, ⌜AgreesBelow m c (n + 1) d⌝ ∗ owns (c : Thread nD τ) scM1 fullShare d)) ∗ (∃ r, prngReg c r))

theorem PhiH_zero (c : Dev nD) (n : ℕ) (h : n ≤ cfg0.N) (hz : n = 0) : PhiH m c n h = Pipeline.ΦA spec0 c := by
  subst hz; rfl

theorem PhiH_succ (c : Dev nD) (n : ℕ) (hn : n + 1 ≤ cfg0.N) :
    PhiH m c (n + 1) hn = iprop(iprop(owns (c : Thread nD τ) scM0 fullShare (s1v m c) ∗ (∃ d, ⌜AgreesBelow m c (n + 1) d⌝ ∗ owns (c : Thread nD τ) scM1 fullShare d)) ∗ (∃ r, prngReg c r)) := rfl

theorem PhiH_pos (c : Dev nD) (n : ℕ) (h : n ≤ cfg0.N) (hz : n ≠ 0) :
    PhiH m c n h = iprop(iprop(owns (c : Thread nD τ) scM0 fullShare (s1v m c) ∗ (∃ d, ⌜AgreesBelow m c n d⌝ ∗ owns (c : Thread nD τ) scM1 fullShare d)) ∗ (∃ r, prngReg c r)) := by
  cases n with
  | zero => exact absurd rfl hz
  | succ n => rfl

/-! ## The proof data -/

/-- The arrays as the region finds them; after the body each input's buffer at its block, the two results' at
    `embBlk` and `scoreBlk` (consulted at the points of layer 1 only: in layer 0 their windows are idle); the
    invariant `PhiH`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => embBlk m c t
    | ⟨9, _⟩ => scoreBlk m c t
  Φ t := PhiH m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiH m c t.val (Nat.le_of_lt t.isLt) := by
  dsimp only [dats]; simp only [Fin.coe_castSucc]

theorem Phi_succ (c : Dev nD) (t : Fin cfg0.N) :
    (dats m 0 c).Φ t.succ = PhiH m c (t.val + 1) t.isLt := rfl

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = embBlk m c t := by dsimp only [dats]
theorem after_9 (c : Dev nD) (t : Fin cfg0.N) : (dats m 0 c).after 9 t = scoreBlk m c t := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.KernelIdeal.Hand

end
-- ==== Proof.KiRunA.lean ====
/-
  The kernel body run whole at the grid's first point: the first two branches taken (the first scratch filled with the product of the x block and the W1 block, then slab 0 of the second scratch stored), the third not. Both results' staging buffers are handed back as found; the first scratch, found at anything, is handed back with its one whole-buffer piece written, the second scratch with the slab's piece written over what it held.
-/
import proofs.«157216_g52089363366198_cont_9to1_m_650_6_alg».proof.Proof.KiConds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs1 : Vec F S10000x256 .bf16) :
    { L : List (View.Piece (Elt F) S10000x256 .bf16) × List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ d, owns (c : Thread nD τ) arg12 fullShare d) ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ (∃ f, (arg12.view.loc (c : Thread nD τ) ↦[arg12.view.set]{fullShare} arg12.view.writes (Elt F) f L.1)) ∗ (arg13.view.loc (c : Thread nD τ) ↦[arg13.view.set]{fullShare} arg13.view.writes (Elt F) (harg13.unread xs1) L.2)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    iexact HS1

end Cert.KernelIdeal.Hand

end
-- ==== Proof.KiRunB.lean ====
/-
  The kernel body run whole at a point of layer 0 after the first: only the second branch taken (the point's slab of the second scratch stored, from the first scratch as the first point left it). Both results' staging buffers and the first scratch are handed back as found, the second scratch with the slab's piece written over what it held.
-/
import proofs.«157216_g52089363366198_cont_9to1_m_650_6_alg».proof.Proof.KiConds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs0 : Vec F S10000x256 .bf16) (xs1 : Vec F S10000x256 .bf16) :
    { LS1 : List (View.Piece (Elt F) S10000x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y8 ∗ owns (c : Thread nD τ) arg11 fullShare y9 ∗ owns (c : Thread nD τ) arg12 fullShare xs0 ∗ (arg13.view.loc (c : Thread nD τ) ↦[arg13.view.set]{fullShare} arg13.view.writes (Elt F) (harg13.unread xs1) LS1)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    iexact HS1

end Cert.KernelIdeal.Hand

end
-- ==== Proof.KiRunC.lean ====
/-
  The kernel body run whole at a point of layer 1: only the third branch taken (the two results' blocks computed from the whole second scratch and stored). Both scratches are handed back as found; each result's staging buffer, found at anything, is handed back with its one whole-buffer piece written.
-/
import proofs.«157216_g52089363366198_cont_9to1_m_650_6_alg».proof.Proof.KiConds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : ¬cond1 i) (hc2 : cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (xs0 : Vec F S10000x256 .bf16) (xs1 : Vec F S10000x256 .bf16) :
    { L : List (View.Piece (Elt F) S200x256 .f32) × List (View.Piece (Elt F) S200x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0 ∗ owns (c : Thread nD τ) arg13 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg10.view.loc (c : Thread nD τ) ↦[arg10.view.set]{fullShare} arg10.view.writes (Elt F) f L.1)) ∗ (∃ f, (arg11.view.loc (c : Thread nD τ) ↦[arg11.view.set]{fullShare} arg11.view.writes (Elt F) f L.2)) ∗ owns (c : Thread nD τ) arg12 fullShare xs0 ∗ owns (c : Thread nD τ) arg13 fullShare xs1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11 arg12 harg12 arg13 harg13) K } := by
  refine ⟨(?_, ?_), fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0; obtain rfl := harg13.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    iexists _; isplitr; · ipureintro; exact harg13.read_unread _
    iexact HS1

end Cert.KernelIdeal.Hand

end
-- ==== Proof.KiRead.lean ====
/-
  What the three whole-body runs leave, in closed form. Each run's witness is a list of stores; every load in it is a
  whole-buffer load of contents the run was handed, so each stored value is the body's named function of those
  contents: at point 0 the first scratch gets x·W1 and slab 0 of the second scratch gets the slab computed FROM that
  product; at a later point of layer 0 the point's slab is computed from the first scratch as handed; at a point of
  layer 1 the two results' buffers get their blocks. Then two facts about one slab store over known contents: inside
  the slab the buffer reads the stored value, outside it what it held.
-/
import proofs.«157216_g52089363366198_cont_9to1_m_650_6_alg».proof.Proof.KiRunA
import proofs.«157216_g52089363366198_cont_9to1_m_650_6_alg».proof.Proof.KiRunB
import proofs.«157216_g52089363366198_cont_9to1_m_650_6_alg».proof.Proof.KiRunC
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

theorem hz2 : (![0, 0] : Fin 2 → Nat) = fun _ => 0 := by
  funext a; match a with | ⟨0, _⟩ => rfl | ⟨1, _⟩ => rfl

/-- Point 0: the first scratch stored whole with x·W1, then slab `k0_off1 i` of the second with the slab computed from it. -/
theorem runA_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs1 : Vec F S10000x256 .bf16) :
    (runA c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y8 y9 xs1).1
      = ([⟨Rect.unit (s := S10000x256) ![0, 0] S10000x256.size inb_S10000x256_S10000x256_0_0, k0_pay1 x1 x2⟩],
         [⟨Rect.unit (s := S10000x256) (k0_off1 i) S200x256.size (k0_off1_inb i hc1), k0_pay3 x0 (k0_pay1 x1 x2) x3 x4⟩]) := by
  unfold runA
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2, View.readCov_unit_zero (S := S10000x256) _ hz2]

/-- A later point of layer 0: the point's slab of the second scratch, computed from the first scratch as handed. -/
theorem runB_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : cond1 i) (hc2 : ¬cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (y8 : Vec F S200x256 .f32) (y9 : Vec F S200x1 .f32) (xs0 : Vec F S10000x256 .bf16) (xs1 : Vec F S10000x256 .bf16) :
    (runB c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 y8 y9 xs0 xs1).1
      = [⟨Rect.unit (s := S10000x256) (k0_off1 i) S200x256.size (k0_off1_inb i hc1), k0_pay3 x0 xs0 x3 x4⟩] := by
  unfold runB
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2]

/-- A point of layer 1: each result's staging buffer stored whole with its block. -/
theorem runC_pieces (c : Dev nD) (i : grid0.Coords) (arg2 : Memref sig .tc .vmem S200x10000 .f32) (harg2 : arg2.IsWhole) (arg3 : Memref sig .tc .vmem S10000x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x1 .f32) (harg9 : arg9.IsWhole) (arg10 : Memref sig .tc .vmem S200x256 .f32) (harg10 : arg10.IsWhole) (arg11 : Memref sig .tc .vmem S200x1 .f32) (harg11 : arg11.IsWhole) (arg12 : Memref sig .tc .vmem S10000x256 .bf16) (harg12 : arg12.IsWhole) (arg13 : Memref sig .tc .vmem S10000x256 .bf16) (harg13 : arg13.IsWhole) (hc0 : ¬cond0 i) (hc1 : ¬cond1 i) (hc2 : cond2 i)
    (x0 : Vec F S200x10000 .f32) (x1 : Vec F S10000x256 .f32) (x2 : Vec F S256x256 .f32) (x3 : Vec F S1x256 .f32) (x4 : Vec F S256x256 .f32) (x5 : Vec F S1x256 .f32) (x6 : Vec F S1x256 .f32) (x7 : Vec F S1x1 .f32) (xs0 : Vec F S10000x256 .bf16) (xs1 : Vec F S10000x256 .bf16) :
    (runC c i arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 xs0 xs1).1
      = ([⟨Rect.unit (s := S200x256) ![0, 0] S200x256.size inb_S200x256_S200x256_0_0, k0_pay4 x0 xs1 x5⟩],
         [⟨Rect.unit (s := S200x1) ![0, 0] S200x1.size inb_S200x1_S200x1_0_0, k0_pay5 x0 xs1 x5 x6 x7⟩]) := by
  unfold runC
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, View.ld_unit_zero (S := S200x10000) hz2, View.ld_unit_zero (S := S10000x256) hz2, View.ld_unit_zero (S := S256x256) hz2, View.ld_unit_zero (S := S1x256) hz2, View.ld_unit_zero (S := S1x1) hz2, View.ld_unit_zero (S := S200x256) hz2, View.ld_unit_zero (S := S200x1) hz2]

/-- One store through the whole-buffer rectangle leaves its value, whatever the buffer held. -/
theorem read_whole_store {S : Shape} {e : EltTy} {sp : Space} (v : View sig .tc sp S e) (f : v.ty.Contents (Elt F))
    {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h
  rw [View.read_writes_eq_canon _ _ _ (fun y => ⟨_, List.mem_singleton_self _, by
    show y ∈ (Rect.whole S).set; rw [Rect.set_whole]; exact Finset.mem_univ y⟩), View.canon_unit_zero rfl]

/-- After one store of a 200-row slab starting at row `off 0`, column 0: a row inside the slab reads the stored value
    at its row within the slab. -/
theorem slab_read_in (M : Memref sig .tc .vmem S10000x256 .bf16) (f : M.view.ty.Contents (Elt F)) (off : Fin 2 → Nat)
    (inb : ∀ a, off a + S200x256.size a ≤ S10000x256.size a) (w : Vec F S200x256 .bf16)
    (idx : S10000x256.Idx) (p : Fin 200) (h0 : (idx 0).val = off 0 + p.val) (h1 : off 1 = 0) :
    M.view.read (Elt F) (M.view.writes (Elt F) f [⟨Rect.unit (s := S10000x256) off S200x256.size inb, w⟩]) idx
      = w (ValueIdx.ix2 p (idx 1)) := by
  have e : (Rect.unit (s := S10000x256) off S200x256.size inb).emb (ValueIdx.ix2 p (idx 1)) = idx := by
    funext a; apply Fin.ext; rw [Rect.emb_apply]
    match a with
    | ⟨0, _⟩ => show off 0 + 1 * p.val = (idx 0).val; omega
    | ⟨1, _⟩ => show off 1 + 1 * (idx 1).val = (idx 1).val; omega
  have h := View.read_writes_cons_emb M.view f (Rect.unit (s := S10000x256) off S200x256.size inb) w [] (ValueIdx.ix2 p (idx 1))
  rw [e] at h
  exact h

/-- and a row outside it reads what the buffer held. -/
theorem slab_read_out (M : Memref sig .tc .vmem S10000x256 .bf16) (f : M.view.ty.Contents (Elt F)) (off : Fin 2 → Nat)
    (inb : ∀ a, off a + S200x256.size a ≤ S10000x256.size a) (w : Vec F S200x256 .bf16)
    (idx : S10000x256.Idx) (h : (idx 0).val < off 0 ∨ off 0 + 200 ≤ (idx 0).val) :
    M.view.read (Elt F) (M.view.writes (Elt F) f [⟨Rect.unit (s := S10000x256) off S200x256.size inb, w⟩]) idx
      = M.view.read (Elt F) f idx := by
  refine View.read_writes_apply_of_forall_not_mem M.view f idx _ fun q hq => ?_
  rw [List.mem_singleton] at hq; subst hq
  show idx ∉ (Rect.unit (s := S10000x256) off S200x256.size inb).set
  rw [Rect.mem_set_unit]; intro hm
  have h2 := hm 0
  have hs : S200x256.size 0 = 200 := rfl
  rw [hs] at h2
  omega

end Cert.KernelIdeal.Hand

end
-- ==== Proof.KiObl.lean ====
/-
  The body obligation's two sides at a grid point, window by window, and the one pure step of the invariant: storing
  the slab that point t computes (rows 200·t .. 200·t + 199) into contents that agree with the second scratch's final
  value below row 200·t gives contents that agree with it below row 200·(t + 1) — outside the slab nothing changed,
  and inside it the stored value is, by definition, that final value's row block t.
-/
import proofs.«157216_g52089363366198_cont_9to1_m_650_6_alg».proof.Proof.KiData
import proofs.«157216_g52089363366198_cont_9to1_m_650_6_alg».proof.Proof.KiRead

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One more slab: from agreement below row 200·t to agreement below row 200·(t + 1). -/
theorem agrees_step (c : Dev nD) (t : Fin cfg0.N) (ht : t.val < 50) (d : Vec F S10000x256 .bf16)
    (hd : AgreesBelow m c t.val d) (hw : (scM1 : Memref sig .tc .vmem S10000x256 .bf16).IsWhole)
    (inb : ∀ a, k0_off1 (grid0.coords t) a + S200x256.size a ≤ S10000x256.size a) :
    AgreesBelow m c (t.val + 1) (scM1.view.read (Elt F) (scM1.view.writes (Elt F) (hw.unread d)
      [⟨Rect.unit (s := S10000x256) (k0_off1 (grid0.coords t)) S200x256.size inb,
        k0_pay3 (iblk m c 0 t) (s1v m c) (iblk m c 3 t) (iblk m c 4 t)⟩])) := by
  intro idx hlt
  by_cases h : (idx 0).val < 200 * t.val
  · rw [slab_read_out scM1 _ _ inb _ idx (Or.inl (by rw [off1_row t ht]; exact h)), hw.read_unread]
    exact hd idx h
  · have hp : (idx 0).val - 200 * t.val < 200 := by omega
    rw [slab_read_in scM1 _ _ inb _ idx ⟨(idx 0).val - 200 * t.val, hp⟩
      (by rw [off1_row t ht]; show (idx 0).val = 200 * t.val + ((idx 0).val - 200 * t.val); omega) (off1_col t)]
    have e : slabPt (idx 0) = t := Fin.ext (by show (idx 0).val / 200 = t.val; omega)
    have e2 : (⟨(idx 0).val - 200 * t.val, hp⟩ : Fin 200) = ⟨(idx 0).val % 200, Nat.mod_lt _ (by omega)⟩ :=
      Fin.ext (by show (idx 0).val - 200 * t.val = (idx 0).val % 200; omega)
    unfold s2v
    rw [e, e2]

/-! ## The obligation's sides -/

/-- What the body is handed at point `t`: the invariant, what the core owes, and each window's current staging buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- An input's buffer is left at its block. -/
theorem leaves_0 (c : Dev nD) (t : Fin cfg0.N) :
    (dats m 0 c).leavesExact 0 t = owns (c : Thread nD τ) (ms0 t) fullShare (iblk m c 0 t) := by
  unfold Dat.leavesExact; rw [live0 t, after_0]
theorem leaves_1 (c : Dev nD) (t : Fin cfg0.N) :
    (dats m 0 c).leavesExact 1 t = owns (c : Thread nD τ) (ms1 t) fullShare (iblk m c 1 t) := by
  unfold Dat.leavesExact; rw [live1 t, after_1]
theorem leaves_2 (c : Dev nD) (t : Fin cfg0.N) :
    (dats m 0 c).leavesExact 2 t = owns (c : Thread nD τ) (ms2 t) fullShare (iblk m c 2 t) := by
  unfold Dat.leavesExact; rw [live2 t, after_2]
theorem leaves_3 (c : Dev nD) (t : Fin cfg0.N) :
    (dats m 0 c).leavesExact 3 t = owns (c : Thread nD τ) (ms3 t) fullShare (iblk m c 3 t) := by
  unfold Dat.leavesExact; rw [live3 t, after_3]
theorem leaves_4 (c : Dev nD) (t : Fin cfg0.N) :
    (dats m 0 c).leavesExact 4 t = owns (c : Thread nD τ) (ms4 t) fullShare (iblk m c 4 t) := by
  unfold Dat.leavesExact; rw [live4 t, after_4]
theorem leaves_5 (c : Dev nD) (t : Fin cfg0.N) :
    (dats m 0 c).leavesExact 5 t = owns (c : Thread nD τ) (ms5 t) fullShare (iblk m c 5 t) := by
  unfold Dat.leavesExact; rw [live5 t, after_5]
theorem leaves_6 (c : Dev nD) (t : Fin cfg0.N) :
    (dats m 0 c).leavesExact 6 t = owns (c : Thread nD τ) (ms6 t) fullShare (iblk m c 6 t) := by
  unfold Dat.leavesExact; rw [live6 t, after_6]
theorem leaves_7 (c : Dev nD) (t : Fin cfg0.N) :
    (dats m 0 c).leavesExact 7 t = owns (c : Thread nD τ) (ms7 t) fullShare (iblk m c 7 t) := by
  unfold Dat.leavesExact; rw [live7 t, after_7]

/-- In layer 0 a result's buffer is left as found; -/
theorem leaves_8_idle (c : Dev nD) (t : Fin cfg0.N) (ht : t.val < 50) :
    (dats m 0 c).leavesExact 8 t = iprop(∃ d, owns (c : Thread nD τ) (ms8 t) fullShare ((dats m 0 c).before 8 t d)) :=
  Dat.leavesExact_idle _ 8 t (by rw [idle8 t]; exact decide_eq_true ht) (by rw [flush8 t]; exact decide_eq_false (by omega))
theorem leaves_9_idle (c : Dev nD) (t : Fin cfg0.N) (ht : t.val < 50) :
    (dats m 0 c).leavesExact 9 t = iprop(∃ d, owns (c : Thread nD τ) (ms9 t) fullShare ((dats m 0 c).before 9 t d)) :=
  Dat.leavesExact_idle _ 9 t (by rw [idle9 t]; exact decide_eq_true ht) (by rw [flush9 t]; exact decide_eq_false (by omega))

/-- in layer 1 at its block. -/
theorem leaves_8_live (c : Dev nD) (t : Fin cfg0.N) (ht : 50 ≤ t.val) :
    (dats m 0 c).leavesExact 8 t = owns (c : Thread nD τ) (ms8 t) fullShare (embBlk m c t) := by
  unfold Dat.leavesExact; rw [idle8 t, decide_eq_false (by omega), after_8]
theorem leaves_9_live (c : Dev nD) (t : Fin cfg0.N) (ht : 50 ≤ t.val) :
    (dats m 0 c).leavesExact 9 t = owns (c : Thread nD τ) (ms9 t) fullShare (scoreBlk m c t) := by
  unfold Dat.leavesExact; rw [idle9 t, decide_eq_false (by omega), after_9]

end Cert.KernelIdeal.Hand

end
-- ==== Proof.KiBodyA.lean ====
/-
  The body obligation at the grid's first point: both scratch arrays are found at anything; the body fills the first with x·W1 and slab 0 of the second, which then agrees with its final value below row 200; the results' buffers go back as found.
-/
import proofs.«157216_g52089363366198_cont_9to1_m_650_6_alg».proof.Proof.KiObl

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_A (c : Dev nD) (t : Fin cfg0.N) (hA : t.val = 0) :
    bodyPre m c t ⊢ wp frame (wpE (defs₀ (F := F)) Variants.none c none) Set.univ (bodyAt0 t) (fun _ => bodyPost m c t) := by
  obtain rfl : t = pt0 := Fin.ext hA
  unfold bodyPre bodyPost bodyAt0
  simp only [before_0, before_1, before_2, before_3, before_4, before_5, before_6, before_7]
  rw [show (dats m 0 c).owesAt () pt0.succ = (dats m 0 c).owesAt () pt0.castSucc from rfl]
  rw [Phi_succ, PhiH_succ]
  rw [leaves_0, leaves_1, leaves_2, leaves_3, leaves_4, leaves_5, leaves_6, leaves_7]
  rw [leaves_8_idle m c pt0 (by show (0 : ℕ) < 50; omega), leaves_9_idle m c pt0 (by show (0 : ℕ) < 50; omega)]
  rw [Phi_castSucc m c pt0, PhiH_zero m c _ _ rfl, PhiA_eq]
  iintro ⟨⟨⟨HS0, ⟨%dS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords pt0) _ _ _ _ _ _ _ _ _ _ _ _ _ _ _ _ _ _ _ _ _ _ _ _ ((hcond0 pt0).mpr rfl) ((hcond1 pt0).mpr (by show (0 : ℕ) < 50; omega)) (fun h => absurd ((hcond2 pt0).mp h) (by show ¬(50 ≤ (0 : ℕ)); omega)) (iblk m c 0 pt0) (iblk m c 1 pt0) (iblk m c 2 pt0) (iblk m c 3 pt0) (iblk m c 4 pt0) (iblk m c 5 pt0) (iblk m c 6 pt0) (iblk m c 7 pt0) ((dats m 0 c).before 8 pt0 d8) ((dats m 0 c).before 9 pt0 d9) dS).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, ⟨%f0, HS0⟩, HS1⟩
  isplitl [HS0 HS1 Hg]
  · isplitl [HS0 HS1]
    · isplitl [HS0]
      · unfold owns; iexists _; isplitr
        swap; · iexact HS0
        ipureintro
        rw [runA_pieces]
        exact read_whole_store _ _ hz2 _ _
      · iexists _; isplitr
        swap
        · unfold owns; iexists _; isplitr
          swap; · iexact HS1
          ipureintro; rfl
        ipureintro
        rw [runA_pieces]
        exact agrees_step m c pt0 (by show (0 : ℕ) < 50; omega) dS (AgreesBelow.zero m c dS) _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

end Cert.KernelIdeal.Hand

end
-- ==== Proof.KiBodyB.lean ====
/-
  The body obligation at a point t of layer 0 after the first: the first scratch is found at x·W1 and goes back so; the second, found agreeing with its final value below row 200·t, gets the point's slab and agrees below row 200·(t + 1); the results' buffers go back as found.
-/
import proofs.«157216_g52089363366198_cont_9to1_m_650_6_alg».proof.Proof.KiObl

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_B (c : Dev nD) (t : Fin cfg0.N) (hA : t.val ≠ 0) (hB : t.val < 50) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_succ, PhiH_succ]
  rw [leaves_0, leaves_1, leaves_2, leaves_3, leaves_4, leaves_5, leaves_6, leaves_7]
  rw [leaves_8_idle m c t hB, leaves_9_idle m c t hB]
  rw [Phi_castSucc m c t, PhiH_pos m c _ _ hA]
  iintro ⟨⟨⟨HS0, ⟨%dS, %hdS, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ _ _ (fun h => hA ((hcond0 t).mp h)) ((hcond1 t).mpr hB) (fun h => absurd ((hcond2 t).mp h) (by omega)) (iblk m c 0 t) (iblk m c 1 t) (iblk m c 2 t) (iblk m c 3 t) (iblk m c 4 t) (iblk m c 5 t) (iblk m c 6 t) (iblk m c 7 t) ((dats m 0 c).before 8 t d8) ((dats m 0 c).before 9 t d9) (s1v m c) dS).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      · iexists _; isplitr
        swap
        · unfold owns; iexists _; isplitr
          swap; · iexact HS1
          ipureintro; rfl
        ipureintro
        rw [runB_pieces]
        exact agrees_step m c t hB dS hdS _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iexists _; iexact H9

end Cert.KernelIdeal.Hand

end
-- ==== Proof.KiBodyC.lean ====
/-
  The body obligation at a point t of layer 1: all fifty slabs are written, so the second scratch is found at its final value; both scratch arrays go back as found, and each result's buffer, found at anything, is left at the point's block.
-/
import proofs.«157216_g52089363366198_cont_9to1_m_650_6_alg».proof.Proof.KiObl

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem sound_C (c : Dev nD) (t : Fin cfg0.N) (hC : 50 ≤ t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_succ, PhiH_succ]
  rw [leaves_0, leaves_1, leaves_2, leaves_3, leaves_4, leaves_5, leaves_6, leaves_7]
  rw [leaves_8_live m c t hC, leaves_9_live m c t hC]
  rw [Phi_castSucc m c t, PhiH_pos m c _ _ (by omega)]
  iintro ⟨⟨⟨HS0, ⟨%d1, %hd1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  obtain rfl := AgreesBelow.eq_of_le m c hC hd1
  iapply ((runC c (grid0.coords t) _ _ _ _ _ _ _ _ _ _ _ _ _ _ _ _ _ _ _ _ _ _ _ _ (fun h => absurd ((hcond0 t).mp h) (by omega)) (fun h => absurd ((hcond1 t).mp h) (by omega)) ((hcond2 t).mpr hC) (iblk m c 0 t) (iblk m c 1 t) (iblk m c 2 t) (iblk m c 3 t) (iblk m c 4 t) (iblk m c 5 t) (iblk m c 6 t) (iblk m c 7 t) (s1v m c) (s2v m c)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HS0]; · iexact HS0
  isplitl [HS1]; · iexact HS1
  iintro ⟨H0, H1, H2, H3, H4, H5, H6, H7, ⟨%f8, H8⟩, ⟨%f9, H9⟩, HS0, HS1⟩
  isplitl [HS0 HS1 Hg]
  · isplitl [HS0 HS1]
    · isplitl [HS0]
      · iexact HS0
      · iexists _; isplitr
        swap; · iexact HS1
        ipureintro
        exact AgreesBelow.of_eq m c _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro
    rw [runC_pieces]
    exact read_whole_store _ _ hz2 _ _
  unfold owns; iexists _; isplitr
  swap; · iexact H9
  ipureintro
  rw [runC_pieces]
  exact read_whole_store _ _ hz2 _ _

end Cert.KernelIdeal.Hand

end
-- ==== Proof.KiFrame.lean ====
/-
  The frame. The three cases cover the grid (point 0; points 1..49; points 50..99), so the body obligation holds at
  every point. Before the first point the invariant is the class's own (both scratch arrays at anything); after the
  last it gives that back by forgetting what the scratch arrays hold. The pipeline's launch theorem then runs @main:
  every weakly fair execution terminates, each windowed array ends at what the proof data computes, and every other
  unscoped buffer at what it held when the region was entered; read at the argument arrays this is the frame claim.
-/
import proofs.«157216_g52089363366198_cont_9to1_m_650_6_alg».proof.Proof.KiBodyA
import proofs.«157216_g52089363366198_cont_9to1_m_650_6_alg».proof.Proof.KiBodyB
import proofs.«157216_g52089363366198_cont_9to1_m_650_6_alg».proof.Proof.KiBodyC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases hA : t.val = 0
  · exact sound_A m c t hA
  · by_cases hB : t.val < 50
    · exact sound_B m c t hA hB
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiH m c 0 (Nat.zero_le _) from rfl, PhiH_zero m c 0 _ rfl]
  try exact Idealize.SL.BI.Entails.refl _

/-- After the last point the invariant gives the class's back: what the scratch arrays hold is forgotten. -/
theorem hout (c : Dev nD) : (dats m 0 c).Φ (Fin.last cfg0.N) ⊢ Pipeline.ΦA spec0 c := by
  rw [show (dats m 0 c).Φ (Fin.last cfg0.N) = PhiH m c (Fin.last cfg0.N).val (Nat.le_of_lt_succ (Fin.last cfg0.N).isLt) from rfl,
    PhiH_pos m c _ _ (by rw [Fin.val_last]; have : cfg0.N = 100 := N_0; omega), PhiA_eq]
  iintro ⟨⟨HS0, ⟨%d, %hd, HS1⟩⟩, Hg⟩
  isplitl [HS0 HS1]
  · isplitl [HS0]
    · iexists _; iexact HS0
    iexists _; iexact HS1
  iexact Hg

set_option backward.isDefEq.respectTransparency.types false in
/-- Every weakly fair execution of @main terminates; each windowed array ends at what the proof data computes
    (an input unchanged, a result its write-backs), every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.KiBlocks.lean ====
/-
  From blocks to arrays. The two results' windows are written back at the points 50..99, point t carrying row block
  t - 50; so row r of either result array is written by point 50 + r / 200, at row r mod 200 of that point's block.
  Hence each result array after the run is ONE function of the index: `embArr`, `scoreArr`.
-/
import proofs.«157216_g52089363366198_cont_9to1_m_650_6_alg».proof.Proof.KiData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ) (ρ : Dev nD → PrngReg)

/-- The point of layer 1 that writes row `r` of the results. -/
def outPt (r : Fin 10000) : Fin cfg0.N := ⟨50 + r.val / 200, by have := r.isLt; rw [show cfg0.N = 100 from N_0]; omega⟩

/-- The embedding result as one function of the index. -/
def embArr (c : Dev nD) : Vec F S10000x256 .f32 := fun idx =>
  embBlk m c (outPt (idx 0)) (ValueIdx.ix2 (⟨(idx 0).val % 200, Nat.mod_lt _ (by omega)⟩ : Fin 200) (idx 1))

/-- The score result as one function of the index. -/
def scoreArr (c : Dev nD) : Vec F S10000x1 .f32 := fun idx =>
  scoreBlk m c (outPt (idx 0)) (ValueIdx.ix2 (⟨(idx 0).val % 200, Nat.mod_lt _ (by omega)⟩ : Fin 200) (idx 1))

/-! ## The embedding result -/

/-- `embArr` at an array index whose row is row `y 0` of row block `t - 50` and whose column is `y 1` is entry `y` of
    the block that point `t` of layer 1 leaves: that row's point is `t`, and its row inside the block is `y 0`. -/
theorem embArr_at (c : Dev nD) (t : Fin cfg0.N) (ht : 50 ≤ t.val) (y : S200x256.Idx) (i : S10000x256.Idx)
    (h0 : (i 0).val = (t.val - 50) * 200 + (y 0).val) (h1 : (i 1).val = (y 1).val) :
    embArr m c i = embBlk m c t y := by
  have hy0 : (y 0).val < 200 := ValueIdx.idx2_lt0 y
  have e : outPt (i 0) = t := Fin.ext (by show 50 + (i 0).val / 200 = t.val; omega)
  show embBlk m c (outPt (i 0)) (ValueIdx.ix2 (⟨(i 0).val % 200, Nat.mod_lt _ (by omega)⟩ : Fin 200) (i 1)) = _
  rw [e]
  refine congrArg (embBlk m c t) ?_
  funext a
  apply Fin.ext
  match a with
  | ⟨0, _⟩ => show (i 0).val % 200 = (y 0).val; omega
  | ⟨1, _⟩ => exact h1

/-- What a point `t` of layer 1 writes back to the embedding result is block `t` of `embArr`. -/
theorem flushed8_eq (c : Dev nD) (t : Fin cfg0.N) (hf : (cfg0.win 8).flush t = true) :
    (dats m 0 c).flushed 8 t = ((cfg0.win 8).blk t).view.read (Elt F) (embArr m c) := by
  have ht : 50 ≤ t.val := by rw [flush8] at hf; exact of_decide_eq_true hf
  obtain ⟨e0, e1⟩ := index8 t ht
  show (cfg0.win 8).cut (grid0.coords t) ((dats m 0 c).after 8 t) = _
  rw [after_8]
  funext y
  show embBlk m c t y = embArr m c (((cfg0.win 8).blk t).view.emb y)
  refine (embArr_at m c t ht y _ ?_ ?_).symm
  · show win0_8.index t (0 : Fin 2) * 200 + 1 * (y 0).val = (t.val - 50) * 200 + (y 0).val
    rw [e0]; omega
  · show win0_8.index t (1 : Fin 2) * 256 + 1 * (y 1).val = (y 1).val
    rw [e1]; omega

/-- An index of the embedding result is in point `t`'s block iff each coordinate is in the block's range on its axis. -/
theorem mem_blk8 (t : Fin cfg0.N) (i : S10000x256.Idx) :
    i ∈ ((cfg0.win 8).blk t).view.set ↔ ∀ a : Fin 2, win0_8.index t a * S200x256.size a ≤ (i a).val ∧ (i a).val < win0_8.index t a * S200x256.size a + S200x256.size a := by
  show i ∈ ((View.whole main_v3_0).slice (win0_8.rect t)).set ↔ _
  rw [View.set_slice_whole, Rect.mem_set_unit]
  exact Iff.rfl

/-- Every index of the embedding result is in the block of the point of layer 1 that carries its row block. -/
theorem cover8 (i : S10000x256.Idx) :
    ∃ t : Fin cfg0.N, (cfg0.win 8).flush t = true ∧ i ∈ ((cfg0.win 8).blk t).view.set := by
  have hi0 : (i 0).val < 10000 := ValueIdx.idx2_lt0 i
  have hi1 : (i 1).val < 256 := ValueIdx.idx2_lt1 i
  have hv : (outPt (i 0)).val = 50 + (i 0).val / 200 := rfl
  have ht : 50 ≤ (outPt (i 0)).val := by omega
  obtain ⟨e0, e1⟩ := index8 (outPt (i 0)) ht
  refine ⟨outPt (i 0), by rw [flush8]; exact decide_eq_true ht, ?_⟩
  rw [mem_blk8]
  intro a
  match a with
  | ⟨0, _⟩ =>
    show win0_8.index (outPt (i 0)) (0 : Fin 2) * 200 ≤ (i 0).val ∧ (i 0).val < win0_8.index (outPt (i 0)) (0 : Fin 2) * 200 + 200
    rw [e0, hv]; omega
  | ⟨1, _⟩ =>
    show win0_8.index (outPt (i 0)) (1 : Fin 2) * 256 ≤ (i 1).val ∧ (i 1).val < win0_8.index (outPt (i 0)) (1 : Fin 2) * 256 + 256
    rw [e1]; omega

/-- After the run the embedding result's array (window 8's) holds `embArr`. -/
theorem final8 (c : Dev nD) : (dats m 0 c).arrAt 8 cfg0.N = embArr m c :=
  (dats m 0 c).arrAt_eq_of_cover 8 (embArr m c) (fun t hf => flushed8_eq m c t hf) cover8

/-! ## The score result -/

/-- `scoreArr` at an array index whose row is row `y 0` of row block `t - 50` and whose column is `y 1` is entry `y` of
    the block that point `t` of layer 1 leaves. -/
theorem scoreArr_at (c : Dev nD) (t : Fin cfg0.N) (ht : 50 ≤ t.val) (y : S200x1.Idx) (i : S10000x1.Idx)
    (h0 : (i 0).val = (t.val - 50) * 200 + (y 0).val) (h1 : (i 1).val = (y 1).val) :
    scoreArr m c i = scoreBlk m c t y := by
  have hy0 : (y 0).val < 200 := ValueIdx.idx2_lt0 y
  have e : outPt (i 0) = t := Fin.ext (by show 50 + (i 0).val / 200 = t.val; omega)
  show scoreBlk m c (outPt (i 0)) (ValueIdx.ix2 (⟨(i 0).val % 200, Nat.mod_lt _ (by omega)⟩ : Fin 200) (i 1)) = _
  rw [e]
  refine congrArg (scoreBlk m c t) ?_
  funext a
  apply Fin.ext
  match a with
  | ⟨0, _⟩ => show (i 0).val % 200 = (y 0).val; omega
  | ⟨1, _⟩ => exact h1

/-- What a point `t` of layer 1 writes back to the score result is block `t` of `scoreArr`. -/
theorem flushed9_eq (c : Dev nD) (t : Fin cfg0.N) (hf : (cfg0.win 9).flush t = true) :
    (dats m 0 c).flushed 9 t = ((cfg0.win 9).blk t).view.read (Elt F) (scoreArr m c) := by
  have ht : 50 ≤ t.val := by rw [flush9] at hf; exact of_decide_eq_true hf
  obtain ⟨e0, e1⟩ := index9 t ht
  show (cfg0.win 9).cut (grid0.coords t) ((dats m 0 c).after 9 t) = _
  rw [after_9]
  funext y
  show scoreBlk m c t y = scoreArr m c (((cfg0.win 9).blk t).view.emb y)
  refine (scoreArr_at m c t ht y _ ?_ ?_).symm
  · show win0_9.index t (0 : Fin 2) * 200 + 1 * (y 0).val = (t.val - 50) * 200 + (y 0).val
    rw [e0]; omega
  · show win0_9.index t (1 : Fin 2) * 1 + 1 * (y 1).val = (y 1).val
    rw [e1]; omega

/-- An index of the score result is in point `t`'s block iff each coordinate is in the block's range on its axis. -/
theorem mem_blk9 (t : Fin cfg0.N) (i : S10000x1.Idx) :
    i ∈ ((cfg0.win 9).blk t).view.set ↔ ∀ a : Fin 2, win0_9.index t a * S200x1.size a ≤ (i a).val ∧ (i a).val < win0_9.index t a * S200x1.size a + S200x1.size a := by
  show i ∈ ((View.whole main_v3_1).slice (win0_9.rect t)).set ↔ _
  rw [View.set_slice_whole, Rect.mem_set_unit]
  exact Iff.rfl

/-- Every index of the score result is in the block of the point of layer 1 that carries its row block. -/
theorem cover9 (i : S10000x1.Idx) :
    ∃ t : Fin cfg0.N, (cfg0.win 9).flush t = true ∧ i ∈ ((cfg0.win 9).blk t).view.set := by
  have hi0 : (i 0).val < 10000 := ValueIdx.idx2_lt0 i
  have hi1 : (i 1).val < 1 := ValueIdx.idx2_lt1 i
  have hv : (outPt (i 0)).val = 50 + (i 0).val / 200 := rfl
  have ht : 50 ≤ (outPt (i 0)).val := by omega
  obtain ⟨e0, e1⟩ := index9 (outPt (i 0)) ht
  refine ⟨outPt (i 0), by rw [flush9]; exact decide_eq_true ht, ?_⟩
  rw [mem_blk9]
  intro a
  match a with
  | ⟨0, _⟩ =>
    show win0_9.index (outPt (i 0)) (0 : Fin 2) * 200 ≤ (i 0).val ∧ (i 0).val < win0_9.index (outPt (i 0)) (0 : Fin 2) * 200 + 200
    rw [e0, hv]; omega
  | ⟨1, _⟩ =>
    show win0_9.index (outPt (i 0)) (1 : Fin 2) * 1 ≤ (i 1).val ∧ (i 1).val < win0_9.index (outPt (i 0)) (1 : Fin 2) * 1 + 1
    rw [e1]; omega

/-- After the run the score result's array (window 9's) holds `scoreArr`. -/
theorem final9 (c : Dev nD) : (dats m 0 c).arrAt 9 cfg0.N = scoreArr m c :=
  (dats m 0 c).arrAt_eq_of_cover 9 (scoreArr m c) (fun t hf => flushed9_eq m c t hf) cover9

end Cert.KernelIdeal.Hand

end
-- ==== Proof.KiValue.lean ====
/-
  The run with its results named: the score result's array (window 9's, `main_v3_1`) ends at `scoreArr`, the
  embedding result's (window 8's, `main_v3_0`) at `embArr`, and the arguments are unchanged.
-/
import proofs.«157216_g52089363366198_cont_9to1_m_650_6_alg».proof.Proof.KiFrame
import proofs.«157216_g52089363366198_cont_9to1_m_650_6_alg».proof.Proof.KiBlocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (m : (ℓ : Loc nD τ sig) → Buf (Elt F) ℓ) (ρ : Dev nD → PrngReg)

theorem run_values : θ_run defs (onTc (τ := τ) (main (F := F))) ⟨m, fun _ => 0, ρ⟩ (fun r => ∀ c : Dev nD,
      r.2.mem ((c.tc : Thread nD τ).loc main_v3_1) = scoreArr m c
      ∧ r.2.mem ((c.tc : Thread nD τ).loc main_v3_0) = embArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 9).trans (final9 m c), ((h c).1 8).trans (final8 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main m ρ)

end Cert.KernelIdeal.Hand

end
-- ==== Proof.BridgeIn.lean ====
/-
  The kernel's input blocks read at an index of the argument arrays. The adjacency window's block at point t is row
  block t mod 50: its entry (p, j) is adj[200·(t mod 50) + p, j]. The other seven windows carry their whole array at
  every point: x, W1, W2, W3 as they are, and the two biases and b3 as the reshapes [256] → [1,256] and [1] → [1,1]
  that the host makes before the call.
-/
import proofs.«157216_g52089363366198_cont_9to1_m_650_6_alg».proof.Proof.KiData
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand

variable {F : FTy → Type} [FloatOps F]
variable (m : (ℓ : Loc nD τ sig) → Buf (Elt F) ℓ)

/-- The whole-array windows sit at block (0, 0) at every point. -/
theorem index1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem index2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The first bias as the region finds it: the argument vector with a leading unit axis added. -/
theorem V_main_v0 (c : Dev nD) : (V m c main_v0 : S1x256.Idx → Elt F .f32)
    = shapeCast S1x256 (m ((c.tc : Thread nD τ).loc main_arg3) : S256.Idx → Elt F .f32) shapeCasts_S256_S1x256 := by
  dsimp only [Gen.V, Gen.hostOps0]; after_results; rfl
/-- The second bias as the region finds it. -/
theorem V_main_v1 (c : Dev nD) : (V m c main_v1 : S1x256.Idx → Elt F .f32)
    = shapeCast S1x256 (m ((c.tc : Thread nD τ).loc main_arg5) : S256.Idx → Elt F .f32) shapeCasts_S256_S1x256 := by
  dsimp only [Gen.V, Gen.hostOps0]; after_results; rfl
/-- The last layer's bias as the region finds it. -/
theorem V_main_v2 (c : Dev nD) : (V m c main_v2 : S1x1.Idx → Elt F .f32)
    = shapeCast S1x1 (m ((c.tc : Thread nD τ).loc main_arg7) : S1.Idx → Elt F .f32) shapeCasts_S1_S1x1 := by
  dsimp only [Gen.V, Gen.hostOps0]; after_results; rfl

/-- Entry (p, j) of the adjacency block at point t is adj[200·(t mod 50) + p, j]. -/
theorem adj_blk (c : Dev nD) (t : Fin cfg0.N) (p : Fin 200) (j : Fin 10000) :
    (iblk m c 0 t : Vec F S200x10000 .f32) (ix2 p j)
      = ((m ((c.tc : Thread nD τ).loc main_arg1)) : Vec F S10000x10000 .f32) (ix2 (⟨200 * (t.val % 50) + p.val, by have := p.isLt; have := Nat.mod_lt t.val (show 0 < 50 by omega); omega⟩ : Fin 10000) j) := by
  obtain ⟨h0, h1⟩ := index0 t
  show V m c main_arg1 (((cfg0.win 0).blk t).view.emb (ix2 p j)) = m ((c.tc : Thread nD τ).loc main_arg1) _
  rw [V_main_arg1]
  refine congrArg _ ?_
  funext a
  apply Fin.ext
  match a with
  | ⟨0, _⟩ => show win0_0.index t (0 : Fin 2) * 200 + 1 * p.val = 200 * (t.val % 50) + p.val; rw [h0]; omega
  | ⟨1, _⟩ => show win0_0.index t (1 : Fin 2) * 10000 + 1 * j.val = j.val; rw [h1]; omega

theorem x_blk (c : Dev nD) (t : Fin cfg0.N) : (iblk m c 1 t : Vec F S10000x256 .f32) = (m ((c.tc : Thread nD τ).loc main_arg0)) := by
  obtain ⟨h0, h1⟩ := index1 t
  funext y
  show V m c main_arg0 (((cfg0.win 1).blk t).view.emb y) = m ((c.tc : Thread nD τ).loc main_arg0) y
  rw [V_main_arg0]
  refine congrArg _ ?_
  funext a
  apply Fin.ext
  match a with
  | ⟨0, _⟩ => show win0_1.index t (0 : Fin 2) * 10000 + 1 * (y 0).val = (y 0).val; rw [h0]; omega
  | ⟨1, _⟩ => show win0_1.index t (1 : Fin 2) * 256 + 1 * (y 1).val = (y 1).val; rw [h1]; omega
theorem w1_blk (c : Dev nD) (t : Fin cfg0.N) : (iblk m c 2 t : Vec F S256x256 .f32) = (m ((c.tc : Thread nD τ).loc main_arg2)) := by
  obtain ⟨h0, h1⟩ := index2 t
  funext y
  show V m c main_arg2 (((cfg0.win 2).blk t).view.emb y) = m ((c.tc : Thread nD τ).loc main_arg2) y
  rw [V_main_arg2]
  refine congrArg _ ?_
  funext a
  apply Fin.ext
  match a with
  | ⟨0, _⟩ => show win0_2.index t (0 : Fin 2) * 256 + 1 * (y 0).val = (y 0).val; rw [h0]; omega
  | ⟨1, _⟩ => show win0_2.index t (1 : Fin 2) * 256 + 1 * (y 1).val = (y 1).val; rw [h1]; omega
theorem w2_blk (c : Dev nD) (t : Fin cfg0.N) : (iblk m c 4 t : Vec F S256x256 .f32) = (m ((c.tc : Thread nD τ).loc main_arg4)) := by
  obtain ⟨h0, h1⟩ := index4 t
  funext y
  show V m c main_arg4 (((cfg0.win 4).blk t).view.emb y) = m ((c.tc : Thread nD τ).loc main_arg4) y
  rw [V_main_arg4]
  refine congrArg _ ?_
  funext a
  apply Fin.ext
  match a with
  | ⟨0, _⟩ => show win0_4.index t (0 : Fin 2) * 256 + 1 * (y 0).val = (y 0).val; rw [h0]; omega
  | ⟨1, _⟩ => show win0_4.index t (1 : Fin 2) * 256 + 1 * (y 1).val = (y 1).val; rw [h1]; omega
theorem w3_blk (c : Dev nD) (t : Fin cfg0.N) : (iblk m c 6 t : Vec F S1x256 .f32) = (m ((c.tc : Thread nD τ).loc main_arg6)) := by
  obtain ⟨h0, h1⟩ := index6 t
  funext y
  show V m c main_arg6 (((cfg0.win 6).blk t).view.emb y) = m ((c.tc : Thread nD τ).loc main_arg6) y
  rw [V_main_arg6]
  refine congrArg _ ?_
  funext a
  apply Fin.ext
  match a with
  | ⟨0, _⟩ => show win0_6.index t (0 : Fin 2) * 1 + 1 * (y 0).val = (y 0).val; rw [h0]; omega
  | ⟨1, _⟩ => show win0_6.index t (1 : Fin 2) * 256 + 1 * (y 1).val = (y 1).val; rw [h1]; omega
theorem b1_blk (c : Dev nD) (t : Fin cfg0.N) (k : Fin 256) :
    (iblk m c 3 t : Vec F S1x256 .f32) (ix2 (0 : Fin 1) k) = ((m ((c.tc : Thread nD τ).loc main_arg3)) : Vec F S256 .f32) (ix1 k) := by
  obtain ⟨h0, h1⟩ := index3 t
  have e : (((cfg0.win 3).blk t).view.emb (ix2 (0 : Fin 1) k) : S1x256.Idx) = ix2 (0 : Fin 1) k := by
    funext a
    apply Fin.ext
    match a with
    | ⟨0, _⟩ => show win0_3.index t (0 : Fin 2) * 1 + 1 * 0 = 0; rw [h0]
    | ⟨1, _⟩ => show win0_3.index t (1 : Fin 2) * 256 + 1 * k.val = k.val; rw [h1]; omega
  show (V m c main_v0 : S1x256.Idx → Elt F .f32) (((cfg0.win 3).blk t).view.emb (ix2 (0 : Fin 1) k)) = _
  rw [e, V_main_v0]
  exact shapeCast_a_1a_apply _ _ _ _
theorem b2_blk (c : Dev nD) (t : Fin cfg0.N) (k : Fin 256) :
    (iblk m c 5 t : Vec F S1x256 .f32) (ix2 (0 : Fin 1) k) = ((m ((c.tc : Thread nD τ).loc main_arg5)) : Vec F S256 .f32) (ix1 k) := by
  obtain ⟨h0, h1⟩ := index5 t
  have e : (((cfg0.win 5).blk t).view.emb (ix2 (0 : Fin 1) k) : S1x256.Idx) = ix2 (0 : Fin 1) k := by
    funext a
    apply Fin.ext
    match a with
    | ⟨0, _⟩ => show win0_5.index t (0 : Fin 2) * 1 + 1 * 0 = 0; rw [h0]
    | ⟨1, _⟩ => show win0_5.index t (1 : Fin 2) * 256 + 1 * k.val = k.val; rw [h1]; omega
  show (V m c main_v1 : S1x256.Idx → Elt F .f32) (((cfg0.win 5).blk t).view.emb (ix2 (0 : Fin 1) k)) = _
  rw [e, V_main_v1]
  exact shapeCast_a_1a_apply _ _ _ _
theorem b3_blk (c : Dev nD) (t : Fin cfg0.N) :
    (iblk m c 7 t : Vec F S1x1 .f32) (ix2 (0 : Fin 1) (0 : Fin 1)) = ((m ((c.tc : Thread nD τ).loc main_arg7)) : Vec F S1 .f32) (ix1 (0 : Fin 1)) := by
  obtain ⟨h0, h1⟩ := index7 t
  have e : (((cfg0.win 7).blk t).view.emb (ix2 (0 : Fin 1) (0 : Fin 1)) : S1x1.Idx) = ix2 (0 : Fin 1) (0 : Fin 1) := by
    funext a
    apply Fin.ext
    match a with
    | ⟨0, _⟩ => show win0_7.index t (0 : Fin 2) * 1 + 1 * 0 = 0; rw [h0]
    | ⟨1, _⟩ => show win0_7.index t (1 : Fin 2) * 1 + 1 * 0 = 0; rw [h1]
  show (V m c main_v2 : S1x1.Idx → Elt F .f32) (((cfg0.win 7).blk t).view.emb (ix2 (0 : Fin 1) (0 : Fin 1))) = _
  rw [e, V_main_v2]
  exact shapeCast_a_1a_apply _ _ _ _

end Cert.KernelIdeal.Bridge

end
-- ==== Proof.Pay.lean ====
/-
  The kernel body's four stored values read at an index, at the ideal instance, where a float is an extended real,
  a change of float format is the identity and a matrix product into a zero accumulator is the plain sum over the
  contracted axis:
    the first scratch       s1[j,k]   = Σ_q x[j,q]·W1[q,k];
    a slab of the second    s2[p,k]   = Σ_q max(Σ_j a[p,j]·s1[j,q] + b1[q], 0)·W2[q,k];
    a block of embeddings   e[p,k]    = max(Σ_j a[p,j]·s2[j,k] + b2[k], 0);
    a block of scores       sc[p]     = Σ_k e[p,k]·W3[k] + b3.
-/
import proofs.«157216_g52089363366198_cont_9to1_m_650_6_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-! ## The first product: [10000,256] by [256,256] -/

theorem lhs_d1_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem lhs_d1_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs_d1_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs_d1_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

/-- The product into the zero accumulator, read at (j, k): the sum over the contracted axis. -/
theorem mm1_apply {φ₁ φ₂ : FTy} (x : FVec Ideal S10000x256 φ₁) (w : FVec Ideal S256x256 φ₂) (j : Fin 10000) (k : Fin 256) :
    matmul dot_S10000x256_S256x256_S10000x256_1_0_0_1_n_n none x w (constant (F := Ideal) S10000x256 .f32 0x00000000#32) (ix2 j k)
      = ∑ q : Fin 256, x (ix2 j q) * w (ix2 q k) := by
  simp only [matmul]
  rw [Ideal.matmul_constant_zero_apply, ← Equiv.sum_comp (ValueIdx.contrEquiv1 dot_S10000x256_S256x256_S10000x256_1_0_0_1_n_n 256 rfl rfl).symm]
  refine Finset.sum_congr rfl fun q _ => ?_
  have hq := ValueIdx.contrEquiv1_symm_val dot_S10000x256_S256x256_S10000x256_1_0_0_1_n_n 256 rfl rfl q
  have el : dot_S10000x256_S256x256_S10000x256_1_0_0_1_n_n.lhsIdx (ix2 j k) ((ValueIdx.contrEquiv1 dot_S10000x256_S256x256_S10000x256_1_0_0_1_n_n 256 rfl rfl).symm q) = ix2 j q := funext fun a => Fin.ext (by
    match a with
    | ⟨0, _⟩ => exact lhs_d1_0 _ _
    | ⟨1, _⟩ => exact (lhs_d1_1 _ _).trans hq)
  have er : dot_S10000x256_S256x256_S10000x256_1_0_0_1_n_n.rhsIdx (ix2 j k) ((ValueIdx.contrEquiv1 dot_S10000x256_S256x256_S10000x256_1_0_0_1_n_n 256 rfl rfl).symm q) = ix2 q k := funext fun a => Fin.ext (by
    match a with
    | ⟨0, _⟩ => exact (rhs_d1_0 _ _).trans hq
    | ⟨1, _⟩ => exact rhs_d1_1 _ _)
  rw [el, er]

/-! ## The second product: [200,10000] by [10000,256] -/

theorem lhs_d2_0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem lhs_d2_1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
theorem rhs_d2_0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
theorem rhs_d2_1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The product into the zero accumulator, read at (p, k): the sum over the contracted axis. -/
theorem mm2_apply {φ₁ φ₂ : FTy} (a : FVec Ideal S200x10000 φ₁) (s : FVec Ideal S10000x256 φ₂) (p : Fin 200) (k : Fin 256) :
    matmul dot_S200x10000_S10000x256_S200x256_1_0_0_1_n_n none a s (constant (F := Ideal) S200x256 .f32 0x00000000#32) (ix2 p k)
      = ∑ j : Fin 10000, a (ix2 p j) * s (ix2 j k) := by
  simp only [matmul]
  rw [Ideal.matmul_constant_zero_apply, ← Equiv.sum_comp (ValueIdx.contrEquiv1 dot_S200x10000_S10000x256_S200x256_1_0_0_1_n_n 10000 rfl rfl).symm]
  refine Finset.sum_congr rfl fun j _ => ?_
  have hj := ValueIdx.contrEquiv1_symm_val dot_S200x10000_S10000x256_S200x256_1_0_0_1_n_n 10000 rfl rfl j
  have el : dot_S200x10000_S10000x256_S200x256_1_0_0_1_n_n.lhsIdx (ix2 p k) ((ValueIdx.contrEquiv1 dot_S200x10000_S10000x256_S200x256_1_0_0_1_n_n 10000 rfl rfl).symm j) = ix2 p j := funext fun c => Fin.ext (by
    match c with
    | ⟨0, _⟩ => exact lhs_d2_0 _ _
    | ⟨1, _⟩ => exact (lhs_d2_1 _ _).trans hj)
  have er : dot_S200x10000_S10000x256_S200x256_1_0_0_1_n_n.rhsIdx (ix2 p k) ((ValueIdx.contrEquiv1 dot_S200x10000_S10000x256_S200x256_1_0_0_1_n_n 10000 rfl rfl).symm j) = ix2 j k := funext fun c => Fin.ext (by
    match c with
    | ⟨0, _⟩ => exact (rhs_d2_0 _ _).trans hj
    | ⟨1, _⟩ => exact rhs_d2_1 _ _)
  rw [el, er]

/-! ## The third product: [200,256] by [256,256] -/

theorem lhs_d3_0 (i : S200x256.Idx) (q : dot_S200x256_S256x256_S200x256_1_0_0_1_n_n.contr.Idx) :
    (dot_S200x256_S256x256_S200x256_1_0_0_1_n_n.lhsIdx i q 0).val = (i 0).val := by
  unfold DotDims.lhsIdx
  rw [dif_neg (show ¬(0 : Fin S200x256.rank) ∈ dot_S200x256_S256x256_S200x256_1_0_0_1_n_n.lhsBatch by decide), dif_pos (show (0 : Fin S200x256.rank) ∈ dot_S200x256_S256x256_S200x256_1_0_0_1_n_n.lhsNonContracting by decide)]
  rfl
theorem lhs_d3_1 (i : S200x256.Idx) (q : dot_S200x256_S256x256_S200x256_1_0_0_1_n_n.contr.Idx) :
    (dot_S200x256_S256x256_S200x256_1_0_0_1_n_n.lhsIdx i q 1).val = (q ⟨0, by decide⟩).val :=
  dot_S200x256_S256x256_S200x256_1_0_0_1_n_n.lhsIdx_val_of_single rfl i q
theorem rhs_d3_0 (i : S200x256.Idx) (q : dot_S200x256_S256x256_S200x256_1_0_0_1_n_n.contr.Idx) :
    (dot_S200x256_S256x256_S200x256_1_0_0_1_n_n.rhsIdx i q 0).val = (q ⟨0, by decide⟩).val :=
  dot_S200x256_S256x256_S200x256_1_0_0_1_n_n.rhsIdx_val_of_single rfl i q
theorem rhs_d3_1 (i : S200x256.Idx) (q : dot_S200x256_S256x256_S200x256_1_0_0_1_n_n.contr.Idx) :
    (dot_S200x256_S256x256_S200x256_1_0_0_1_n_n.rhsIdx i q 1).val = (i 1).val := by
  unfold DotDims.rhsIdx
  rw [dif_neg (show ¬(1 : Fin S256x256.rank) ∈ dot_S200x256_S256x256_S200x256_1_0_0_1_n_n.rhsBatch by decide), dif_pos (show (1 : Fin S256x256.rank) ∈ dot_S200x256_S256x256_S200x256_1_0_0_1_n_n.rhsNonContracting by decide)]
  rfl

/-- The product into the zero accumulator, read at (p, k): the sum over the contracted axis. -/
theorem mm3_apply {φ₁ φ₂ : FTy} (e : FVec Ideal S200x256 φ₁) (w : FVec Ideal S256x256 φ₂) (p : Fin 200) (k : Fin 256) :
    matmul dot_S200x256_S256x256_S200x256_1_0_0_1_n_n none e w (constant (F := Ideal) S200x256 .f32 0x00000000#32) (ix2 p k)
      = ∑ q : Fin 256, e (ix2 p q) * w (ix2 q k) := by
  simp only [matmul]
  rw [Ideal.matmul_constant_zero_apply, ← Equiv.sum_comp (ValueIdx.contrEquiv1 dot_S200x256_S256x256_S200x256_1_0_0_1_n_n 256 rfl rfl).symm]
  refine Finset.sum_congr rfl fun q _ => ?_
  have hq := ValueIdx.contrEquiv1_symm_val dot_S200x256_S256x256_S200x256_1_0_0_1_n_n 256 rfl rfl q
  have el : dot_S200x256_S256x256_S200x256_1_0_0_1_n_n.lhsIdx (ix2 p k) ((ValueIdx.contrEquiv1 dot_S200x256_S256x256_S200x256_1_0_0_1_n_n 256 rfl rfl).symm q) = ix2 p q := funext fun c => Fin.ext (by
    match c with
    | ⟨0, _⟩ => exact lhs_d3_0 _ _
    | ⟨1, _⟩ => exact (lhs_d3_1 _ _).trans hq)
  have er : dot_S200x256_S256x256_S200x256_1_0_0_1_n_n.rhsIdx (ix2 p k) ((ValueIdx.contrEquiv1 dot_S200x256_S256x256_S200x256_1_0_0_1_n_n 256 rfl rfl).symm q) = ix2 q k := funext fun c => Fin.ext (by
    match c with
    | ⟨0, _⟩ => exact (rhs_d3_0 _ _).trans hq
    | ⟨1, _⟩ => exact rhs_d3_1 _ _)
  rw [el, er]

/-! ## Layout steps and the lane sum -/

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the second axis of a [200,256] vector, read at row `p`: the sum of the row's 256 entries. -/
theorem rowSum_apply (src : FVec Ideal S200x256 .f32) (h : S200x256.Reduces [1] S200) (hφ : FKind.Formats .f32)
    (hacc : (0x00000000#32 : BitVec 32) = FKind.add.neutral .f32 hφ) (p : Fin 200) :
    multiReduction (F := Ideal) .add [1] S200 src 0x00000000#32 h hφ hacc (ix1 p) = ∑ k : Fin 256, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-! ## The four stored values at an index -/

/-- A block of embeddings at (p, k). -/
theorem pay4_at (a : Vec Ideal S200x10000 .f32) (s : Vec Ideal S10000x256 .bf16) (b : Vec Ideal S1x256 .f32)
    (p : Fin 200) (k : Fin 256) :
    k0_pay4 (F := Ideal) a s b (ix2 p k)
      = FloatOps.maximumf (FloatOps.addf (∑ j : Fin 10000, a (ix2 p j) * s (ix2 j k)) (b (ix2 (0 : Fin 1) k)))
          (FloatOps.ofBits (F := Ideal) .f32 0x00000000#32) := by
  unfold Gen.k0_pay4 Gen.k0_pay2
  refine congrArg (FloatOps.maximumf · _) (congrArg₂ FloatOps.addf ?_ ?_)
  · exact mm2_apply _ _ p k
  · rw [broadcastTo_1b_ab_apply, shapeCast_self]

theorem pay1_apply (x : Vec Ideal S10000x256 .f32) (w : Vec Ideal S256x256 .f32) (j : Fin 10000) (k : Fin 256) :
    k0_pay1 (F := Ideal) x w (ix2 j k) = ∑ q : Fin 256, x (ix2 j q) * w (ix2 q k) := by
  unfold Gen.k0_pay1
  rw [shapeCast_self, truncf_apply]
  exact mm1_apply _ _ j k

theorem pay3_apply (a : Vec Ideal S200x10000 .f32) (s : Vec Ideal S10000x256 .bf16) (b : Vec Ideal S1x256 .f32)
    (w : Vec Ideal S256x256 .f32) (p : Fin 200) (k : Fin 256) :
    k0_pay3 (F := Ideal) a s b w (ix2 p k)
      = ∑ q : Fin 256, FloatOps.maximumf (FloatOps.addf (∑ j : Fin 10000, a (ix2 p j) * s (ix2 j q)) (b (ix2 (0 : Fin 1) q)))
          (FloatOps.ofBits (F := Ideal) .f32 0x00000000#32) * w (ix2 q k) := by
  unfold Gen.k0_pay3
  rw [shapeCast_self, truncf_apply]
  refine (mm3_apply _ _ p k).trans ?_
  refine Finset.sum_congr rfl fun q _ => ?_
  rw [truncf_apply, truncf_apply]
  exact congrArg (· * w (ix2 q k)) (pay4_at a s b p q)

theorem pay4_apply (a : Vec Ideal S200x10000 .f32) (s : Vec Ideal S10000x256 .bf16) (b : Vec Ideal S1x256 .f32)
    (p : Fin 200) (k : Fin 256) :
    k0_pay4 (F := Ideal) a s b (ix2 p k)
      = FloatOps.maximumf (FloatOps.addf (∑ j : Fin 10000, a (ix2 p j) * s (ix2 j k)) (b (ix2 (0 : Fin 1) k)))
          (FloatOps.ofBits (F := Ideal) .f32 0x00000000#32) := by
  exact pay4_at a s b p k

theorem pay5_apply (a : Vec Ideal S200x10000 .f32) (s : Vec Ideal S10000x256 .bf16) (b : Vec Ideal S1x256 .f32)
    (w3 : Vec Ideal S1x256 .f32) (b3 : Vec Ideal S1x1 .f32) (p : Fin 200) :
    k0_pay5 (F := Ideal) a s b w3 b3 (ix2 p (0 : Fin 1))
      = FloatOps.addf (∑ k : Fin 256, k0_pay4 (F := Ideal) a s b (ix2 p k) * w3 (ix2 (0 : Fin 1) k)) (b3 (ix2 (0 : Fin 1) (0 : Fin 1))) := by
  unfold Gen.k0_pay5
  refine congrArg₂ FloatOps.addf ?_ ?_
  · rw [shapeCast_a_a1_apply]
    refine (rowSum_apply _ _ _ _ p).trans ?_
    refine Finset.sum_congr rfl fun k _ => ?_
    rw [mulf_apply, broadcastTo_1b_ab_apply]
  · rw [broadcastTo_1b_ab_apply, shapeCast_self]

end Cert.KernelIdeal.Pay

end
-- ==== Proof.Bridge.lean ====
/-
  The kernel's carried values and results are the reference's own stages, at the ideal instance:
    the first scratch is the reference's x·W1;
    the second scratch is the reference's relu(adj·(x·W1) + b1)·W2, row by row — row r sits in the slab that point
      r / 200 computed from adjacency rows 200·(r / 200) .. +199, and r = 200·(r / 200) + r mod 200;
    the embedding result is the reference's relu(adj·(that) + b2);
    the score result is the reference's product of that with W3 transposed, plus b3: a row's sum against W3.
  Both sides are the same sums over the same index ranges with the same grouping, so no law of the extended reals is
  used beyond reading each matrix product as its sum.
-/
import proofs.«157216_g52089363366198_cont_9to1_m_650_6_alg».proof.Proof.KiBlocks
import proofs.«157216_g52089363366198_cont_9to1_m_650_6_alg».proof.Proof.BridgeIn
import proofs.«157216_g52089363366198_cont_9to1_m_650_6_alg».proof.Proof.Pay
import proofs.«157216_g52089363366198_cont_9to1_m_650_6_alg».proof.Proof.Gen.ReferenceIdeal.Read

set_option maxRecDepth 16384

noncomputable section

namespace Cert.KernelIdeal.Bridge

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-! ## The reference's index functions at explicit coordinates -/

theorem lidx0 (r : Fin 10000) (q k : Fin 256) :
    Cert.ReferenceIdeal.Read.lidx_main_v0 (ix2 r q) k = ix2 r k :=
  funext fun a => Fin.ext (by match a with | ⟨0, _⟩ => rfl | ⟨1, _⟩ => rfl)

theorem ridx0 (r : Fin 10000) (q k : Fin 256) :
    Cert.ReferenceIdeal.Read.ridx_main_v0 (ix2 r q) k = ix2 k q :=
  funext fun a => Fin.ext (by match a with | ⟨0, _⟩ => rfl | ⟨1, _⟩ => rfl)

theorem lidx1 (r : Fin 10000) (q : Fin 256) (k : Fin 10000) :
    Cert.ReferenceIdeal.Read.lidx_main_v1 (ix2 r q) k = ix2 r k :=
  funext fun a => Fin.ext (by match a with | ⟨0, _⟩ => rfl | ⟨1, _⟩ => rfl)

theorem ridx1 (r : Fin 10000) (q : Fin 256) (k : Fin 10000) :
    Cert.ReferenceIdeal.Read.ridx_main_v1 (ix2 r q) k = ix2 k q :=
  funext fun a => Fin.ext (by match a with | ⟨0, _⟩ => rfl | ⟨1, _⟩ => rfl)

theorem lidx7 (r : Fin 10000) (q k : Fin 256) :
    Cert.ReferenceIdeal.Read.lidx_main_v7 (ix2 r q) k = ix2 r k :=
  funext fun a => Fin.ext (by match a with | ⟨0, _⟩ => rfl | ⟨1, _⟩ => rfl)

theorem ridx7 (r : Fin 10000) (q k : Fin 256) :
    Cert.ReferenceIdeal.Read.ridx_main_v7 (ix2 r q) k = ix2 k q :=
  funext fun a => Fin.ext (by match a with | ⟨0, _⟩ => rfl | ⟨1, _⟩ => rfl)

theorem lidx8 (r : Fin 10000) (q : Fin 256) (k : Fin 10000) :
    Cert.ReferenceIdeal.Read.lidx_main_v8 (ix2 r q) k = ix2 r k :=
  funext fun a => Fin.ext (by match a with | ⟨0, _⟩ => rfl | ⟨1, _⟩ => rfl)

theorem ridx8 (r : Fin 10000) (q : Fin 256) (k : Fin 10000) :
    Cert.ReferenceIdeal.Read.ridx_main_v8 (ix2 r q) k = ix2 k q :=
  funext fun a => Fin.ext (by match a with | ⟨0, _⟩ => rfl | ⟨1, _⟩ => rfl)

theorem lidx15 (r : Fin 10000) (k : Fin 256) :
    Cert.ReferenceIdeal.Read.lidx_main_v15 (ix2 r (0 : Fin 1)) k = ix2 r k :=
  funext fun a => Fin.ext (by match a with | ⟨0, _⟩ => rfl | ⟨1, _⟩ => rfl)

/-- The transposed W3 read at the product's right index (k, 0) is W3 at (0, k). -/
theorem ridx15 (r : Fin 10000) (k : Fin 256) :
    Cert.ReferenceIdeal.Read.idx_main_v14 (Cert.ReferenceIdeal.Read.ridx_main_v15 (ix2 r (0 : Fin 1)) k) = ix2 (0 : Fin 1) k :=
  funext fun a => Fin.ext (by match a with | ⟨0, _⟩ => rfl | ⟨1, _⟩ => rfl)

/-! ## The reference's hidden layer at an index -/

/-- relu(adj·(x·W1) + b1) at (r, k): the row sum against the first stage, plus the bias entry, against zero. -/
theorem v6_at (x0 : Vec Ideal S10000x256 .f32) (x1 : Vec Ideal S10000x10000 .f32) (x2 : Vec Ideal S256x256 .f32)
    (x3 : Vec Ideal S256 .f32) (r : Fin 10000) (k : Fin 256) :
    Cert.ReferenceIdeal.Read.val_main_v6 (F := Ideal) x0 x1 x2 x3 (ix2 r k)
      = FloatOps.maximumf (FloatOps.addf (∑ j : Fin 10000, x1 (ix2 r j) * Cert.ReferenceIdeal.Read.val_main_v0 (F := Ideal) x0 x2 (ix2 j k)) (x3 (ix1 k)))
          (FloatOps.ofBits (F := Ideal) .f32 0x00000000#32) := by
  rw [Cert.ReferenceIdeal.Read.val_main_v6_apply, Cert.ReferenceIdeal.Read.val_main_v4_apply, Cert.ReferenceIdeal.Read.val_main_v5_apply,
    Cert.ReferenceIdeal.Read.val_main_cst_apply, Cert.ReferenceIdeal.Read.val_main_v1_apply, Cert.ReferenceIdeal.Read.val_main_v3_apply,
    Cert.ReferenceIdeal.Read.val_main_v2_apply]
  refine congrArg (FloatOps.maximumf · _) (congrArg₂ FloatOps.addf ?_ ?_)
  · refine Finset.sum_congr rfl fun j _ => ?_
    rw [lidx1, ridx1]
  · refine congrArg x3 ?_
    funext a
    match a with
    | ⟨0, _⟩ => rfl

/-! ## Rows of the adjacency blocks -/

/-- Row r mod 200 of the block of the point that stores row r's slab is row r of the adjacency. -/
theorem adj_slab (c : Dev nD) (r j : Fin 10000) :
    (iblk m c 0 (slabPt r) : Vec Ideal S200x10000 .f32) (ix2 (⟨r.val % 200, Nat.mod_lt _ (by omega)⟩ : Fin 200) j)
      = ((m ((c.tc : Thread nD τ).loc main_arg1)) : Vec Ideal S10000x10000 .f32) (ix2 r j) := by
  refine (adj_blk m c (slabPt r) _ j).trans ?_
  refine congrArg (fun i : Fin 10000 => ((m ((c.tc : Thread nD τ).loc main_arg1)) : Vec Ideal S10000x10000 .f32) (ix2 i j)) (Fin.ext ?_)
  have := r.isLt
  show 200 * ((r.val / 200) % 50) + r.val % 200 = r.val
  omega

/-- Row r mod 200 of the block of the point of layer 1 that writes row r of the results is row r of the adjacency. -/
theorem adj_out (c : Dev nD) (r j : Fin 10000) :
    (iblk m c 0 (outPt r) : Vec Ideal S200x10000 .f32) (ix2 (⟨r.val % 200, Nat.mod_lt _ (by omega)⟩ : Fin 200) j)
      = ((m ((c.tc : Thread nD τ).loc main_arg1)) : Vec Ideal S10000x10000 .f32) (ix2 r j) := by
  refine (adj_blk m c (outPt r) _ j).trans ?_
  refine congrArg (fun i : Fin 10000 => ((m ((c.tc : Thread nD τ).loc main_arg1)) : Vec Ideal S10000x10000 .f32) (ix2 i j)) (Fin.ext ?_)
  have := r.isLt
  show 200 * ((50 + r.val / 200) % 50) + r.val % 200 = r.val
  omega

theorem s1v_eq (c : Dev nD) (idx : S10000x256.Idx) :
    s1v (F := Ideal) m c idx = Cert.ReferenceIdeal.Read.val_main_v0 (F := Ideal) (m ((c.tc : Thread nD τ).loc main_arg0)) (m ((c.tc : Thread nD τ).loc main_arg2)) idx := by
  obtain ⟨r, q, rfl⟩ : ∃ (r : Fin 10000) (q : Fin 256), idx = ix2 r q := ⟨idx 0, idx 1, eq_ix2 idx⟩
  unfold s1v
  rw [Cert.ReferenceIdeal.Read.val_main_v0_apply]
  refine (Pay.pay1_apply _ _ r q).trans ?_
  rw [x_blk, w1_blk]
  refine Finset.sum_congr rfl fun k _ => ?_
  rw [lidx0, ridx0]

theorem s2v_eq (c : Dev nD) (idx : S10000x256.Idx) :
    s2v (F := Ideal) m c idx = Cert.ReferenceIdeal.Read.val_main_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) idx := by
  obtain ⟨r, q, rfl⟩ : ∃ (r : Fin 10000) (q : Fin 256), idx = ix2 r q := ⟨idx 0, idx 1, eq_ix2 idx⟩
  unfold s2v
  show k0_pay3 (F := Ideal) (iblk m c 0 (slabPt r)) (s1v m c) (iblk m c 3 (slabPt r)) (iblk m c 4 (slabPt r))
    (ix2 (⟨r.val % 200, Nat.mod_lt _ (by omega)⟩ : Fin 200) q) = _
  rw [Cert.ReferenceIdeal.Read.val_main_v7_apply]
  refine (Pay.pay3_apply _ _ _ _ _ q).trans ?_
  refine Finset.sum_congr rfl fun k _ => ?_
  rw [lidx7, ridx7, v6_at, w2_blk, b1_blk]
  refine congrArg (fun z => FloatOps.maximumf (FloatOps.addf z _) _ * _) ?_
  refine Finset.sum_congr rfl fun j _ => ?_
  rw [adj_slab, s1v_eq]

/-- The embedding block's entry for row r, column q is the reference's relu(adj·s2 + b2) at (r, q). -/
theorem emb_at (c : Dev nD) (r : Fin 10000) (q : Fin 256) :
    k0_pay4 (F := Ideal) (iblk m c 0 (outPt r)) (s2v m c) (iblk m c 5 (outPt r)) (ix2 (⟨r.val % 200, Nat.mod_lt _ (by omega)⟩ : Fin 200) q)
      = Cert.ReferenceIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r q) := by
  rw [Cert.ReferenceIdeal.Read.val_main_v13_apply, Cert.ReferenceIdeal.Read.val_main_v11_apply, Cert.ReferenceIdeal.Read.val_main_v12_apply,
    Cert.ReferenceIdeal.Read.val_main_cst_0_apply, Cert.ReferenceIdeal.Read.val_main_v8_apply, Cert.ReferenceIdeal.Read.val_main_v10_apply,
    Cert.ReferenceIdeal.Read.val_main_v9_apply]
  refine (Pay.pay4_apply _ _ _ _ q).trans ?_
  refine congrArg (FloatOps.maximumf · _) (congrArg₂ FloatOps.addf ?_ ?_)
  · refine Finset.sum_congr rfl fun j _ => ?_
    rw [lidx8, ridx8, adj_out, s2v_eq]
  · rw [b2_blk]
    refine congrArg (m ((c.tc : Thread nD τ).loc main_arg5)) ?_
    funext a
    match a with
    | ⟨0, _⟩ => rfl

theorem embArr_eq (c : Dev nD) :
    embArr (F := Ideal) m c = Cert.ReferenceIdeal.Read.val_main_v13 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext idx
  obtain ⟨r, q, rfl⟩ : ∃ (r : Fin 10000) (q : Fin 256), idx = ix2 r q := ⟨idx 0, idx 1, eq_ix2 idx⟩
  unfold embArr embBlk
  exact emb_at m c r q

theorem scoreArr_eq (c : Dev nD) :
    scoreArr (F := Ideal) m c = Cert.ReferenceIdeal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext idx
  obtain ⟨r, u, rfl⟩ : ∃ (r : Fin 10000) (u : Fin 1), idx = ix2 r u := ⟨idx 0, idx 1, eq_ix2 idx⟩
  obtain rfl : u = 0 := Subsingleton.elim _ _
  unfold scoreArr scoreBlk
  show k0_pay5 (F := Ideal) (iblk m c 0 (outPt r)) (s2v m c) (iblk m c 5 (outPt r)) (iblk m c 6 (outPt r)) (iblk m c 7 (outPt r))
    (ix2 (⟨r.val % 200, Nat.mod_lt _ (by omega)⟩ : Fin 200) (0 : Fin 1)) = _
  rw [Cert.ReferenceIdeal.Read.val_main_v18_apply, Cert.ReferenceIdeal.Read.val_main_v15_apply, Cert.ReferenceIdeal.Read.val_main_v17_apply,
    Cert.ReferenceIdeal.Read.val_main_v16_apply]
  refine (Pay.pay5_apply _ _ _ _ _ _).trans ?_
  refine congrArg₂ FloatOps.addf ?_ ?_
  · refine Finset.sum_congr rfl fun k _ => ?_
    rw [lidx15, Cert.ReferenceIdeal.Read.val_main_v14_apply, ridx15, w3_blk, emb_at]
  · rw [b3_blk]
    refine congrArg (m ((c.tc : Thread nD τ).loc main_arg7)) ?_
    funext a
    match a with
    | ⟨0, _⟩ => rfl

end Cert.KernelIdeal.Bridge

end
-- ==== Proof.lean ====
/-
  The fused two-layer graph convolution against its jnp reference.

  Both programs compute, over the extended reals,
      h     = max(adj·(x·W1) + b1, 0),
      emb   = max(adj·(h·W2) + b2, 0),
      score = emb·W3ᵀ + b3,
  with the same grouping of every product. The kernel runs on a grid of 2 × 50 points: in layer 0 it keeps s1 = x·W1 in
  one scratch array (written at the first point) and fills a second, slab by slab, with s2 = h·W2 (point t writes rows
  200·t .. 200·t + 199 from adjacency rows of the same range); in layer 1 point 50 + t computes rows 200·t .. 200·t + 199 of
  emb from s2 and of score from those rows, and the pipeline writes them back. At the ideal instance a change of float
  format is the identity and a matrix product into a zero accumulator is the plain sum, so s1, s2, emb and score are,
  index by index, the reference's own intermediate stages (Proof/Bridge.lean): no law of the extended reals beyond
  reading the products as sums is used, and the precondition (finite inputs) is never opened.

  The frames of the kernel's two readings (word level and ideal) are one proof, generic in the float instance
  (Proof/KiFrame.lean and its copy Proof/KbFrame.lean): a tracking invariant says what the two scratch arrays hold between
  grid points. The reference's frame is its generated run with the results dropped. The ideal pass rewrote nothing, so
  `preserves` is trivial.
-/
import proofs.«157216_g52089363366198_cont_9to1_m_650_6_alg».proof.Defs
import proofs.«157216_g52089363366198_cont_9to1_m_650_6_alg».proof.Proof.Gen.Kernel
import proofs.«157216_g52089363366198_cont_9to1_m_650_6_alg».proof.Proof.Gen.KernelIdeal
import proofs.«157216_g52089363366198_cont_9to1_m_650_6_alg».proof.Proof.Gen.ReferenceIdeal
import proofs.«157216_g52089363366198_cont_9to1_m_650_6_alg».proof.Proof.Gen.Pre_finite_inputs
import proofs.«157216_g52089363366198_cont_9to1_m_650_6_alg».proof.Proof.Gen.ReferenceIdeal.Run
import proofs.«157216_g52089363366198_cont_9to1_m_650_6_alg».proof.Proof.Gen.ReferenceIdeal.Read
import proofs.«157216_g52089363366198_cont_9to1_m_650_6_alg».proof.Proof.KbFrame
import proofs.«157216_g52089363366198_cont_9to1_m_650_6_alg».proof.Proof.KiValue
import proofs.«157216_g52089363366198_cont_9to1_m_650_6_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments the kernel's score and embedding arrays end at `scoreArr` and `embArr`,
    and the reference's at its last stages of the same arguments: one function each. -/
theorem algebraic : Cert.algebraic_KernelIdeal_ReferenceIdeal := by
  intro m ρ m' ρ' _ hagree
  refine ⟨fun c => Cert.KernelIdeal.Hand.scoreArr m c, fun c => Cert.KernelIdeal.Hand.embArr m c,
    Cert.KernelIdeal.Hand.run_values m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.KernelIdeal.Bridge.scoreArr_eq m c).symm
  · rw [Cert.ReferenceIdeal.Read.val_main_v13_eq, (hagree c).1, (hagree c).2.1, (hagree c).2.2.1, (hagree c).2.2.2.1,
      (hagree c).2.2.2.2.1, (hagree c).2.2.2.2.2.1]
    exact (Cert.KernelIdeal.Bridge.embArr_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
